-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S100000 : Shape := ⟨1, ![100000]⟩
abbrev S100000x1 : Shape := ⟨2, ![100000, 1]⟩
abbrev S1x128 : Shape := ⟨2, ![1, 128]⟩
abbrev S20x2x128 : Shape := ⟨3, ![20, 2, 128]⟩
abbrev S5000x128 : Shape := ⟨2, ![5000, 128]⟩
abbrev S1x2x128 : Shape := ⟨3, ![1, 2, 128]⟩
abbrev S1x1x128 : Shape := ⟨3, ![1, 1, 128]⟩
abbrev S20x1x128 : Shape := ⟨3, ![20, 1, 128]⟩
abbrev S20x128 : Shape := ⟨2, ![20, 128]⟩
abbrev S2x128 : Shape := ⟨2, ![2, 128]⟩

abbrev nBuf : Space → Nat
  | .hbm => 94
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S600000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S600000x128, .f32⟩
  | .hbm, ⟨32, _⟩ => ⟨S_, .f32⟩
  | .hbm, ⟨33, _⟩ => ⟨S600000, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S_, .f32⟩
  | .hbm, ⟨39, _⟩ => ⟨S100000, .f32⟩
  | .hbm, ⟨40, _⟩ => ⟨S600000x1, .i32⟩
  | .hbm, ⟨41, _⟩ => ⟨S100000, .f32⟩
  | .hbm, ⟨42, _⟩ => ⟨S_, .f32⟩
  | .hbm, ⟨43, _⟩ => ⟨S100000x128, .f32⟩
  | .hbm, ⟨44, _⟩ => ⟨S600000x1, .i32⟩
  | .hbm, ⟨45, _⟩ => ⟨S100000x128, .f32⟩
  | .hbm, ⟨46, _⟩ => ⟨S_, .f32⟩
  | .hbm, ⟨47, _⟩ => ⟨S100000, .f32⟩
  | .hbm, ⟨48, _⟩ => ⟨S600000x1, .i32⟩
  | .hbm, ⟨49, _⟩ => ⟨S100000, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S100000x128, .f32⟩
  | .hbm, ⟨68, _⟩ => ⟨S20x2x128, .f32⟩
  | .hbm, ⟨69, _⟩ => ⟨S20x1x128, .f32⟩
  | .hbm, ⟨70, _⟩ => ⟨S20x128, .f32⟩
  | .hbm, ⟨71, _⟩ => ⟨S_, .f32⟩
  | .hbm, ⟨72, _⟩ => ⟨S128, .f32⟩
  | .hbm, ⟨73, _⟩ => ⟨S20x1x128, .f32⟩
  | .hbm, ⟨74, _⟩ => ⟨S20x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S1x128, .f32⟩
  | .hbm, ⟨90, _⟩ => ⟨S2x128, .f32⟩
  | .hbm, ⟨91, _⟩ => ⟨S1x128, .f32⟩
  | .hbm, ⟨92, _⟩ => ⟨S1x128, .f32⟩
  | .hbm, ⟨93, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x2x128, .f32⟩
  | .local _ .vmem, ⟨13, _⟩ => ⟨S1x2x128, .f32⟩
  | .local _ .vmem, ⟨14, _⟩ => ⟨S5000x128, .f32⟩
  | .local _ .vmem, ⟨15, _⟩ => ⟨S5000x128, .f32⟩
  | .local _ .vmem, ⟨16, _⟩ => ⟨S2x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44_0 : Ref sig .tc := ⟨.hbm, 67, rfl⟩
abbrev main_v44_1 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  inb_S1x2x128_S1x1x128_0_0_0 : ∀ a, (![0, 0, 0] : Fin 3 → Nat) a + S1x1x128.size a ≤ S1x2x128.size a
  h_S1x1x128 : 0 < S1x1x128.numel
  shapeCasts_S1x1x128_S1x128 : S1x1x128.ShapeCasts S1x128
  shapeCasts_S1x128_S1x1x128 : S1x128.ShapeCasts S1x1x128
  inb_S1x2x128_S1x1x128_0_1_0 : ∀ a, (![0, 1, 0] : Fin 3 → Nat) a + S1x1x128.size a ≤ S1x2x128.size a
  slices_S20x2x128_S20x1x128_0_0_0 : S20x2x128.Slices ![0, 0, 0] S20x1x128
  shapeCasts_S20x1x128_S20x128 : S20x1x128.ShapeCasts S20x128
  reducesTo_S20x128_S128_d0 : S20x128.ReducesTo [0] S128
  h_S_ : 0 < S_.numel
  slices_S20x2x128_S20x1x128_0_1_0 : S20x2x128.Slices ![0, 1, 0] S20x1x128
  bcast_S_S128 : S_.BroadcastsInDim S128 (![] : Fin 0 → Fin S128.rank)
  bcast_S128_S1x128_1 : S128.BroadcastsInDim S1x128 (![1] : Fin 1 → Fin S1x128.rank)
  concatenates_S1x128_S1x128_S2x128_d0 : Shape.Concatenates [S1x128, S1x128] S2x128 0
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2x128.size a ≤ S20x2x128.size a
  hwx0_8 : ∀ i : grid0.Coords, EltTy.bits .f32 = 32 ∨ (Rect.block (s := S20x2x128) S1x2x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v33) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v44_1) S1x2x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v44_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S2x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where
  halias1_4 : Pipeline.Aliased win1 0 4

variable [Facts]
-- ==== ReferenceIdeal.lean ====
abbrev S100000x128 : Shape := ⟨2, ![100000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S100000 : Shape := ⟨1, ![100000]⟩
abbrev S100000x1 : Shape := ⟨2, ![100000, 1]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S600000x128, .f32⟩
  | .hbm, ⟨22, _⟩ => ⟨S_, .f32⟩
  | .hbm, ⟨23, _⟩ => ⟨S100000x128, .f32⟩
  | .hbm, ⟨24, _⟩ => ⟨S600000x1, .i32⟩
  | .hbm, ⟨25, _⟩ => ⟨S100000x128, .f32⟩
  | .hbm, ⟨26, _⟩ => ⟨S_, .f32⟩
  | .hbm, ⟨27, _⟩ => ⟨S600000, .f32⟩
  | .hbm, ⟨28, _⟩ => ⟨S_, .f32⟩
  | .hbm, ⟨29, _⟩ => ⟨S100000, .f32⟩
  | .hbm, ⟨30, _⟩ => ⟨S600000x1, .i32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S600000x128, .f32⟩
  | .hbm, ⟨49, _⟩ => ⟨S_, .f32⟩
  | .hbm, ⟨50, _⟩ => ⟨S100000x128, .f32⟩
  | .hbm, ⟨51, _⟩ => ⟨S600000x1, .i32⟩
  | .hbm, ⟨52, _⟩ => ⟨S100000x128, .f32⟩
  | .hbm, ⟨53, _⟩ => ⟨S_, .f32⟩
  | .hbm, ⟨54, _⟩ => ⟨S600000, .f32⟩
  | .hbm, ⟨55, _⟩ => ⟨S_, .f32⟩
  | .hbm, ⟨56, _⟩ => ⟨S100000, .f32⟩
  | .hbm, ⟨57, _⟩ => ⟨S600000x1, .i32⟩
  | .hbm, ⟨58, _⟩ => ⟨S100000, .f32⟩
  | .hbm, ⟨59, _⟩ => ⟨S_, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S1x128, .f32⟩
  | .hbm, ⟨107, _⟩ => ⟨S100000x128, .f32⟩
  | .hbm, ⟨108, _⟩ => ⟨S100000x128, .f32⟩
  | .hbm, ⟨109, _⟩ => ⟨S_, .f32⟩
  | .hbm, ⟨110, _⟩ => ⟨S128, .f32⟩
  | .hbm, ⟨111, _⟩ => ⟨S128, .f32⟩
  | .hbm, ⟨112, _⟩ => ⟨S128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S1x128, .f32⟩
  | .hbm, ⟨117, _⟩ => ⟨S100000x128, .f32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_9 : Ref sig .tc := ⟨.hbm, 59, rfl⟩
abbrev main_call1_v0 : Ref sig .tc := ⟨.hbm, 60, rfl⟩
abbrev main_call1_v1 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_cst_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_17 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The two programs as formulas over the extended reals, entry by entry.

  A node's fused row: with `ho`, `hi` the mean of the messages arriving at a node in the forward and in the
  reversed graph, `x` the node's own features, three 128 x 128 weight tables and three bias rows,
  the kernel computes  third * (ho . wo^T + hi . wi^T + x . ws^T + (bo + bi + bs))  in one piece, and the
  reference computes the sum of the three terms  third * (a . w^T + b)  one after the other.

  The batch normalisation over the 100000 rows of the fused table `h`, column by column: the kernel takes the
  column's sum and sum of squares block by block (20 blocks of 5000 rows), divides by 100000, and uses
  max (E[h^2] - E[h]^2) 0  as the variance; the reference takes the mean, then the mean of the squared deviations.
  Both then scale the deviation by the reciprocal root of the variance plus epsilon, multiply by `g` and add `b`.
-/
import Idealize.ShloMosaic.PureOps.Ideal
import Idealize.ShloMosaic.Lib.ValueIdx

noncomputable section

namespace Cert.Spec

open Idealize.ShloMosaic Idealize.ShloMosaic.ValueIdx
open scoped BigOperators

/-- The node table's shape, a weight table's, a bias row's. -/
abbrev SNC : Shape := ⟨2, ![100000, 128]⟩
abbrev SCC : Shape := ⟨2, ![128, 128]⟩
abbrev SC : Shape := ⟨1, ![128]⟩

/-- The three float literals both programs share: the single-precision numbers nearest 1/3 and 1e-5, and 100000. -/
def third : EReal := Ideal.ofBits .f32 0x3EAAAAAB#32
def eps : EReal := Ideal.ofBits .f32 0x3727C5AC#32
def count : EReal := Ideal.ofBits .f32 0x47C35000#32

/-- Row `r` of block `t` when the 100000 rows are cut into 20 blocks of 5000. -/
def blockRow (t : Fin 20) (r : Fin 5000) : Fin 100000 := ⟨5000 * t.val + r.val, by have := t.isLt; have := r.isLt; omega⟩

/-- One contraction: row `r` of `a` against row `j` of `w` (that is, `a . w^T` at `(r, j)`). -/
def dotT (a : SNC.Idx → EReal) (w : SCC.Idx → EReal) (r : Fin 100000) (j : Fin 128) : EReal :=
  ∑ k : Fin 128, a (ix2 r k) * w (ix2 j k)

/-- The kernel's fused entry: the three contractions added, the summed bias added, the whole times a third. -/
def fuseK (ho hi x : SNC.Idx → EReal) (wo wi ws : SCC.Idx → EReal) (bo bi bs : SC.Idx → EReal)
    (r : Fin 100000) (j : Fin 128) : EReal :=
  third * (((dotT ho wo r j + dotT hi wi r j) + dotT x ws r j) + ((bo (ix1 j) + bi (ix1 j)) + bs (ix1 j)))

/-- The reference's fused entry: a third of each biased contraction, added left to right. -/
def fuseR (ho hi x : SNC.Idx → EReal) (wo wi ws : SCC.Idx → EReal) (bo bi bs : SC.Idx → EReal)
    (r : Fin 100000) (j : Fin 128) : EReal :=
  (third * (dotT ho wo r j + bo (ix1 j)) + third * (dotT hi wi r j + bi (ix1 j))) + third * (dotT x ws r j + bs (ix1 j))

/-- A column's sum taken block by block. -/
def blockSum (f : Fin 100000 → EReal) : EReal := ∑ t : Fin 20, ∑ r : Fin 5000, f (blockRow t r)

/-- The kernel's column mean and variance. -/
def meanK (h : Fin 100000 → Fin 128 → EReal) (j : Fin 128) : EReal := Ideal.div (blockSum fun r => h r j) count
def varK (h : Fin 100000 → Fin 128 → EReal) (j : Fin 128) : EReal :=
  max (Ideal.div (blockSum fun r => h r j * h r j) count - meanK h j * meanK h j) 0

/-- The reference's column mean and variance. -/
def meanR (h : Fin 100000 → Fin 128 → EReal) (j : Fin 128) : EReal := Ideal.div (∑ r : Fin 100000, h r j) count
def varR (h : Fin 100000 → Fin 128 → EReal) (j : Fin 128) : EReal :=
  Ideal.div (∑ r : Fin 100000, (h r j - meanR h j) * (h r j - meanR h j)) count

/-- The normalised entry from a mean and a variance. -/
def norm (h : Fin 100000 → Fin 128 → EReal) (mean var : Fin 128 → EReal) (g b : SC.Idx → EReal)
    (r : Fin 100000) (j : Fin 128) : EReal :=
  ((h r j - mean j) * Ideal.rsqrt (var j + eps)) * g (ix1 j) + b (ix1 j)

/-- The kernel's result and the reference's, entry by entry. -/
def outK (h : Fin 100000 → Fin 128 → EReal) (g b : SC.Idx → EReal) (r : Fin 100000) (j : Fin 128) : EReal :=
  norm h (meanK h) (varK h) g b r j
def outR (h : Fin 100000 → Fin 128 → EReal) (g b : SC.Idx → EReal) (r : Fin 100000) (j : Fin 128) : EReal :=
  norm h (meanR h) (varR h) g b r j

/-- An array read at coordinates. -/
abbrev rd1 {a : ℕ} (v : (⟨1, ![a]⟩ : Shape).Idx → EReal) (j : Fin a) : EReal := v (ix1 j)
abbrev rd2 {a b : ℕ} (v : (⟨2, ![a, b]⟩ : Shape).Idx → EReal) (r : Fin a) (j : Fin b) : EReal := v (ix2 r j)
abbrev rd3 {a b d : ℕ} (v : (⟨3, ![a, b, d]⟩ : Shape).Idx → EReal) (t : Fin a) (p : Fin b) (j : Fin d) : EReal := v (ix3 t p j)

/-- An array of extended reals none of which is infinite. -/
def Finite {ι : Type} (v : ι → EReal) : Prop := ∀ i, v i ≠ ⊤ ∧ v i ≠ ⊥

end Cert.Spec

end
-- ==== Proof.Algebra.lean ====
/-
  The two formulas of Spec.lean agree on finite data.

  Every finite entry is a real number, so both fused tables are the image of one table of reals; the
  block-by-block column sum is the plain column sum; dividing by the row count is multiplying by its
  reciprocal; and over the reals the mean of the squares less the squared mean is the mean of the squared
  deviations, which is never negative, so clamping it at zero changes nothing.
-/
import proofs.«429616_j5832565588650_3_alg».proof.Proof.Spec
import Mathlib.Data.EReal.Basic
import Mathlib.Data.EReal.Operations
import Mathlib.Data.EReal.Inv
import Mathlib.Algebra.BigOperators.Fin
import Mathlib.Algebra.BigOperators.Ring.Finset
import Mathlib.Algebra.Order.BigOperators.Ring.Finset
import Mathlib.Logic.Equiv.Fin.Basic
import Mathlib.Tactic.Ring
import Mathlib.Tactic.Linarith
import Mathlib.Tactic.Positivity
import Mathlib.Tactic.FieldSimp
import Mathlib.Tactic.NormNum
import Mathlib.Tactic.Lift

noncomputable section

namespace Cert.Spec

open Idealize.ShloMosaic Idealize.ShloMosaic.ValueIdx
open scoped BigOperators

/-- The image of a finite sum of reals is the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row count is the real number 100000. -/
theorem count_eq : count = ((100000 : ℝ) : EReal) := by
  simp [count, Ideal.ofBits, Ideal.ieee, -EReal.coe_mul]; norm_num

/-- The third is some real number. -/
theorem third_real : ∃ t : ℝ, third = (t : EReal) := by
  simp [third, Ideal.ofBits, Ideal.ieee, -EReal.coe_mul]

/-- Twenty blocks of 5000 rows are the 100000 rows, each once. -/
theorem blockSum_eq (f : Fin 100000 → EReal) : blockSum f = ∑ r : Fin 100000, f r := by
  unfold blockSum
  rw [← Fintype.sum_prod_type' (f := fun t r => f (blockRow t r))]
  refine Fintype.sum_equiv (finProdFinEquiv (m := 20) (n := 5000)) _ _ (fun p => ?_)
  congr 1
  apply Fin.ext
  simp [blockRow, finProdFinEquiv]
  ring

/-- Over the reals: the mean of the squares less the squared mean is the mean of the squared deviations. -/
theorem var_identity {n : ℕ} (N : ℝ) (hN : (n : ℝ) = N) (h0 : N ≠ 0) (f : Fin n → ℝ) :
    (∑ r, f r * f r) * (1 / N) - ((∑ r, f r) * (1 / N)) * ((∑ r, f r) * (1 / N)) =
      (∑ r, (f r - (∑ r, f r) * (1 / N)) * (f r - (∑ r, f r) * (1 / N))) * (1 / N) := by
  have e : ∀ r, (f r - (∑ r, f r) * (1 / N)) * (f r - (∑ r, f r) * (1 / N)) =
      f r * f r - (2 * ((∑ r, f r) * (1 / N))) * f r + ((∑ r, f r) * (1 / N)) * ((∑ r, f r) * (1 / N)) := by
    intro r; ring
  simp only [e]
  rw [Finset.sum_add_distrib, Finset.sum_sub_distrib, ← Finset.mul_sum, Finset.sum_const, Finset.card_univ,
    Fintype.card_fin, nsmul_eq_mul, hN]
  field_simp
  ring

/-- The mean of squared deviations is not negative. -/
theorem var_nonneg {n : ℕ} (N : ℝ) (h0 : 0 < N) (m : ℝ) (f : Fin n → ℝ) :
    0 ≤ (∑ r, (f r - m) * (f r - m)) * (1 / N) := by
  apply mul_nonneg
  · exact Finset.sum_nonneg (fun r _ => mul_self_nonneg _)
  · positivity

/-- The fused entry over the reals: a third of the three contractions and the three biases together. -/
def fuseReal (t : ℝ) (ho hi x : SNC.Idx → ℝ) (wo wi ws : SCC.Idx → ℝ) (bo bi bs : SC.Idx → ℝ)
    (r : Fin 100000) (j : Fin 128) : ℝ :=
  t * ((((∑ k : Fin 128, ho (ix2 r k) * wo (ix2 j k)) + ∑ k : Fin 128, hi (ix2 r k) * wi (ix2 j k)) +
    ∑ k : Fin 128, x (ix2 r k) * ws (ix2 j k)) + ((bo (ix1 j) + bi (ix1 j)) + bs (ix1 j)))

/-- The column mean of a table of reals, either way of summing. -/
theorem meanR_coe (hR : Fin 100000 → Fin 128 → ℝ) (j : Fin 128) :
    meanR (fun r j => ((hR r j : ℝ) : EReal)) j = (((∑ r, hR r j) * (1 / 100000) : ℝ) : EReal) := by
  unfold meanR
  rw [count_eq, Ideal.div_coe (by norm_num), ← coe_sum, ← EReal.coe_mul]

theorem meanK_coe (hR : Fin 100000 → Fin 128 → ℝ) (j : Fin 128) :
    meanK (fun r j => ((hR r j : ℝ) : EReal)) j = (((∑ r, hR r j) * (1 / 100000) : ℝ) : EReal) := by
  unfold meanK
  rw [blockSum_eq, count_eq, Ideal.div_coe (by norm_num), ← coe_sum, ← EReal.coe_mul]

/-- The reference's column variance of a table of reals. -/
theorem varR_coe (hR : Fin 100000 → Fin 128 → ℝ) (j : Fin 128) :
    varR (fun r j => ((hR r j : ℝ) : EReal)) j =
      (((∑ r, (hR r j - (∑ r, hR r j) * (1 / 100000)) * (hR r j - (∑ r, hR r j) * (1 / 100000))) *
        (1 / 100000) : ℝ) : EReal) := by
  unfold varR
  rw [meanR_coe, count_eq, Ideal.div_coe (by norm_num)]
  simp only [← EReal.coe_sub, ← EReal.coe_mul, ← coe_sum]

/-- The kernel's column variance of a table of reals is the same number. -/
theorem varK_coe (hR : Fin 100000 → Fin 128 → ℝ) (j : Fin 128) :
    varK (fun r j => ((hR r j : ℝ) : EReal)) j =
      (((∑ r, (hR r j - (∑ r, hR r j) * (1 / 100000)) * (hR r j - (∑ r, hR r j) * (1 / 100000))) *
        (1 / 100000) : ℝ) : EReal) := by
  unfold varK
  rw [meanK_coe, blockSum_eq, count_eq, Ideal.div_coe (by norm_num)]
  simp only [← EReal.coe_mul, ← coe_sum, ← EReal.coe_sub]
  rw [var_identity (n := 100000) (100000 : ℝ) (by norm_num) (by norm_num) (fun r => hR r j)]
  rw [← EReal.coe_zero, max_eq_left]
  exact EReal.coe_le_coe_iff.2 (var_nonneg (100000 : ℝ) (by norm_num) _ (fun r => hR r j))

/-- On one table of reals the two normalisations agree. -/
theorem out_coe (hR : Fin 100000 → Fin 128 → ℝ) (g b : SC.Idx → EReal) (r : Fin 100000) (j : Fin 128) :
    outK (fun r j => ((hR r j : ℝ) : EReal)) g b r j = outR (fun r j => ((hR r j : ℝ) : EReal)) g b r j := by
  unfold outK outR norm
  rw [meanK_coe, meanR_coe, varK_coe, varR_coe]

/-- On finite data the kernel's result entry is the reference's. -/
theorem out_eq (ho hi x : SNC.Idx → EReal) (wo wi ws : SCC.Idx → EReal) (bo bi bs g b : SC.Idx → EReal)
    (hho : Finite ho) (hhi : Finite hi) (hx : Finite x) (hwo : Finite wo) (hwi : Finite wi) (hws : Finite ws)
    (hbo : Finite bo) (hbi : Finite bi) (hbs : Finite bs) (r : Fin 100000) (j : Fin 128) :
    outK (fuseK ho hi x wo wi ws bo bi bs) g b r j = outR (fuseR ho hi x wo wi ws bo bi bs) g b r j := by
  unfold Finite at hho hhi hx hwo hwi hws hbo hbi hbs
  lift ho to SNC.Idx → ℝ using hho
  lift hi to SNC.Idx → ℝ using hhi
  lift x to SNC.Idx → ℝ using hx
  lift wo to SCC.Idx → ℝ using hwo
  lift wi to SCC.Idx → ℝ using hwi
  lift ws to SCC.Idx → ℝ using hws
  lift bo to SC.Idx → ℝ using hbo
  lift bi to SC.Idx → ℝ using hbi
  lift bs to SC.Idx → ℝ using hbs
  obtain ⟨t, ht⟩ := third_real
  have hK : fuseK (fun i => (ho i : EReal)) (fun i => (hi i : EReal)) (fun i => (x i : EReal))
      (fun i => (wo i : EReal)) (fun i => (wi i : EReal)) (fun i => (ws i : EReal))
      (fun i => (bo i : EReal)) (fun i => (bi i : EReal)) (fun i => (bs i : EReal)) =
      fun r j => ((fuseReal t ho hi x wo wi ws bo bi bs r j : ℝ) : EReal) := by
    funext r j
    simp only [fuseK, dotT, ht, fuseReal, ← EReal.coe_mul, ← coe_sum, ← EReal.coe_add]
  have hRf : fuseR (fun i => (ho i : EReal)) (fun i => (hi i : EReal)) (fun i => (x i : EReal))
      (fun i => (wo i : EReal)) (fun i => (wi i : EReal)) (fun i => (ws i : EReal))
      (fun i => (bo i : EReal)) (fun i => (bi i : EReal)) (fun i => (bs i : EReal)) =
      fun r j => ((fuseReal t ho hi x wo wi ws bo bi bs r j : ℝ) : EReal) := by
    funext r j
    simp only [fuseR, dotT, ht, fuseReal, ← EReal.coe_mul, ← coe_sum, ← EReal.coe_add]
    congr 1
    ring
  rw [hK, hRf]
  exact out_coe _ g b r j

end Cert.Spec

end
-- ==== Proof.LibScatterRows.lean ====
/-
  The host's accumulating scatter over the extended reals, read at an index, for the two layouts a segment sum
  prints as: a vector of N sums fed by E scalars, and an N x C table of sums fed by E rows of C entries; in both
  the scatter indices are an E x 1 column naming, per update, the operand's position on axis 0. An update lands at
  the position its index names, read signed; an index outside [0, N) drops its update.
-/
import Idealize.ShloMosaic.PureOps.Ideal
import Idealize.ShloMosaic.PureOps.Contract
import Idealize.ShloMosaic.Lib.ValueIdx

set_option maxRecDepth 16384

noncomputable section

namespace Cert.LibScatterRows

open Idealize.ShloMosaic Idealize.ShloMosaic.ValueIdx
open scoped BigOperators

/-- An accumulating scatter's update lands at operand index `i` exactly when, on every axis, the window's start plus
    the window coordinate is `i`'s coordinate. -/
private theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have := h a
      omega
    · intro hf
      funext a
      apply Fin.ext
      have := hf a
      show (d.start j idx a + (d.window j a : ℤ)).toNat = (i a).val
      omega
  · rename_i h
    constructor
    · intro hf
      exact absurd hf (by simp)
    · intro hf
      exfalso
      apply h
      intro a
      have := hf a
      have := (i a).isLt
      omega

/-- A rank-1 index set is its one coordinate's range. -/
private def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-! ### The vector layout -/

/-- The vector layout's dimension numbers as a literal record, over any proof that they are well formed. -/
private abbrev litV {N E : ℕ} (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  ⟨[], [0], [0], 1, wf⟩

section Vec
variable {N E w : ℕ} (wf : ScatterDims.WF ⟨1, ![N]⟩ ⟨2, ![E, 1]⟩ ⟨1, ![E]⟩ [] [0] [0] 1)

/-- Update e reads row e of the column of indices. -/
private theorem siIdx_V (j : (⟨1, ![E]⟩ : Shape).Idx) (c : Fin (litV wf).scatterDimsToOperandDims.length) :
    (litV wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- On axis 0 the window starts at the index word, read signed. -/
private theorem start_V0 (j : (⟨1, ![E]⟩ : Shape).Idx) (idx : IVec ⟨2, ![E, 1]⟩ w) :
    (litV wf).start j idx 0 = (idx (ix2 (j 0) (0 : Fin 1))).toInt := by
  unfold ScatterDims.start
  rw [dif_pos (show (0 : Fin (⟨1, ![N]⟩ : Shape).rank) ∈ (litV wf).scatterDimsToOperandDims from List.mem_singleton.mpr rfl)]
  rw [siIdx_V]
  rfl

/-- Axis 0 is inserted: no window coordinate. -/
private theorem window_V0 (j : (⟨1, ![E]⟩ : Shape).Idx) : (litV wf).window j 0 = 0 := by
  unfold ScatterDims.window
  rw [dif_neg (show ¬(0 : Fin (⟨1, ![N]⟩ : Shape).rank) ∈ (litV wf).sKept from List.not_mem_nil)]

/-- Update j lands at position r exactly when its index word, read signed, is r. -/
private theorem lands_V (j : (⟨1, ![E]⟩ : Shape).Idx) (idx : IVec ⟨2, ![E, 1]⟩ w) (r : Fin N) :
    (litV wf).resultIdx? j idx = some (ix1 r) ↔ (idx (ix2 (j 0) (0 : Fin 1))).toInt = (r.val : ℤ) := by
  rw [resultIdx?_eq_some_iff]
  constructor
  · intro h
    have h0 := h 0
    rw [start_V0, window_V0] at h0
    simp only [Nat.cast_zero, add_zero] at h0
    exact h0
  · intro h a
    match a with
    | ⟨0, _⟩ =>
      have e1 := start_V0 wf j idx
      have e2 := window_V0 wf j
      show (litV wf).start j idx 0 + (((litV wf).window j 0 : ℕ) : ℤ) = (r.val : ℤ)
      rw [e1, e2, h]
      simp

end Vec

/-! ### The table layout -/

/-- The table layout's dimension numbers as a literal record, over any proof that they are well formed. -/
private abbrev litT {N C E : ℕ} (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

section Tab
variable {N C E w : ℕ} (wf : ScatterDims.WF ⟨2, ![N, C]⟩ ⟨2, ![E, 1]⟩ ⟨2, ![E, C]⟩ [1] [0] [0] 1)

/-- The row (e, ·) of updates reads row e of the column of indices. -/
private theorem siIdx_T (j : (⟨2, ![E, C]⟩ : Shape).Idx) (c : Fin (litT wf).scatterDimsToOperandDims.length) :
    (litT wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- The operand's one axis that is not inserted is axis 1. -/
private theorem sKept_T : (litT wf).sKept = [1] := rfl

/-- On axis 0 the window starts at the index word, read signed. -/
private theorem start_T0 (j : (⟨2, ![E, C]⟩ : Shape).Idx) (idx : IVec ⟨2, ![E, 1]⟩ w) :
    (litT wf).start j idx 0 = (idx (ix2 (j 0) (0 : Fin 1))).toInt := by
  unfold ScatterDims.start
  rw [dif_pos (show (0 : Fin (⟨2, ![N, C]⟩ : Shape).rank) ∈ (litT wf).scatterDimsToOperandDims from List.mem_singleton.mpr rfl)]
  rw [siIdx_T]
  rfl

/-- Axis 1 is named by no index: its window starts at 0. -/
private theorem start_T1 (j : (⟨2, ![E, C]⟩ : Shape).Idx) (idx : IVec ⟨2, ![E, 1]⟩ w) :
    (litT wf).start j idx 1 = 0 := by
  unfold ScatterDims.start
  rw [dif_neg (show ¬(1 : Fin (⟨2, ![N, C]⟩ : Shape).rank) ∈ (litT wf).scatterDimsToOperandDims by
    rw [List.mem_singleton]; intro e; exact Nat.one_ne_zero (congrArg Fin.val e))]

/-- Axis 0 is inserted: no window coordinate. -/
private theorem window_T0 (j : (⟨2, ![E, C]⟩ : Shape).Idx) : (litT wf).window j 0 = 0 := by
  unfold ScatterDims.window
  rw [dif_neg (show ¬(0 : Fin (⟨2, ![N, C]⟩ : Shape).rank) ∈ (litT wf).sKept by
    rw [sKept_T, List.mem_singleton]; intro e; exact Nat.zero_ne_one (congrArg Fin.val e))]

/-- Axis 1 is the window axis: its window coordinate is the update's column. -/
private theorem window_T1 (j : (⟨2, ![E, C]⟩ : Shape).Idx) : (litT wf).window j 1 = (j 1).val := by
  unfold ScatterDims.window
  rw [dif_pos (show (1 : Fin (⟨2, ![N, C]⟩ : Shape).rank) ∈ (litT wf).sKept by
    rw [sKept_T]; exact List.mem_singleton.mpr rfl)]
  rfl

/-- Update (e, c') lands at (r, c) exactly when e's index word, read signed, is r and c' is c. -/
private theorem lands_T (j : (⟨2, ![E, C]⟩ : Shape).Idx) (idx : IVec ⟨2, ![E, 1]⟩ w) (r : Fin N) (c : Fin C) :
    (litT wf).resultIdx? j idx = some (ix2 r c)
      ↔ (idx (ix2 (j 0) (0 : Fin 1))).toInt = (r.val : ℤ) ∧ (j 1).val = c.val := by
  rw [resultIdx?_eq_some_iff]
  constructor
  · intro h
    have h0 := h 0
    have h1 := h 1
    rw [start_T0, window_T0] at h0
    rw [start_T1, window_T1] at h1
    simp only [Nat.cast_zero, add_zero] at h0
    have h1' : ((j 1).val : ℤ) = (c.val : ℤ) := by
      simp only [zero_add] at h1
      exact h1
    exact ⟨h0, by exact_mod_cast h1'⟩
  · intro h a
    match a with
    | ⟨0, _⟩ =>
      have e1 := start_T0 wf j idx
      have e2 := window_T0 wf j
      show (litT wf).start j idx 0 + (((litT wf).window j 0 : ℕ) : ℤ) = (r.val : ℤ)
      rw [e1, e2, h.1]
      simp
    | ⟨1, _⟩ =>
      have e1 := start_T1 wf j idx
      have e2 := window_T1 wf j
      show (litT wf).start j idx 1 + (((litT wf).window j 1 : ℕ) : ℤ) = (c.val : ℤ)
      rw [e1, e2, h.2]
      simp

end Tab

/-- A VECTOR of sums. Operand [N], scatter indices [E, 1], updates [E]; no window axis, axis 0 inserted and named by
    the index vector's one component. Entry r is the operand's entry plus the sum of the updates whose index is r. -/
theorem scatterAdd_vec_apply {N E w : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (r : Fin N) :
    Host.scatterAdd (F := Ideal) d x idx upd (ix1 r)
      = x (ix1 r) + ∑ e : Fin E, if (idx (ix2 e (0 : Fin 1))).toInt = (r.val : ℤ) then upd (ix1 e) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx1]
  refine Finset.sum_congr rfl fun e _ => ?_
  exact if_congr (lands_V wf (ix1 e) idx r) rfl rfl

/-- A TABLE of row sums. Operand [N, C], scatter indices [E, 1], updates [E, C]; the updates' axis 1 is the window
    axis, the operand's axis 0 is inserted and named by the index vector's one component. Entry (r, j) is the
    operand's entry plus the sum, over the updates whose index is r, of their entry j. -/
theorem scatterAdd_rows_apply {N C E w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32) (r : Fin N) (j : Fin C) :
    Host.scatterAdd (F := Ideal) d x idx upd (ix2 r j)
      = x (ix2 r j) + ∑ e : Fin E, if (idx (ix2 e (0 : Fin 1))).toInt = (r.val : ℤ) then upd (ix2 e j) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx2]
  refine Finset.sum_congr rfl fun e _ => ?_
  -- the inner sum over the update's column keeps the one column j
  by_cases he : (idx (ix2 e (0 : Fin 1))).toInt = (r.val : ℤ)
  · rw [if_pos he]
    rw [Finset.sum_eq_single j]
    · exact if_pos ((lands_T wf (ix2 e j) idx r j).mpr ⟨he, rfl⟩)
    · intro c' _ hc'
      exact if_neg fun h => hc' (Fin.ext ((lands_T wf (ix2 e c') idx r j).mp h).2)
    · intro h
      exact absurd (Finset.mem_univ j) h
  · rw [if_neg he]
    refine Finset.sum_eq_zero fun c' _ => ?_
    exact if_neg fun h => he ((lands_T wf (ix2 e c') idx r j).mp h).1

end Cert.LibScatterRows

end
-- ==== Proof.HostPrefix.lean ====
/-
  The mean of the messages arriving at each node, as both programs compute it on the host before anything else:
  gather the rows of the node table the first index list names (a negative position counted from the end), subtract
  the edge features, add the rows up per node of the second index list, and divide each node's sum by the number of
  its rows, or by one when it has none.
-/
import proofs.«429616_j5832565588650_3_alg».proof.Proof.Gen.KernelIdeal
import proofs.«429616_j5832565588650_3_alg».proof.Proof.Spec
import proofs.«429616_j5832565588650_3_alg».proof.Proof.LibScatterRows
import Idealize.ShloMosaic.Lib.IdealHost

noncomputable section

namespace Cert.HostPrefix

open Cert.KernelIdeal Cert.KernelIdeal.Facts₀ Cert.Spec
open Idealize.ShloMosaic Idealize.ShloMosaic.ValueIdx
open scoped BigOperators

/-- The mean aggregate of `x[gi] - e` over the segments `si` names. -/
def meanAgg (x : FVec Ideal S100000x128 .f32) (e : FVec Ideal S600000x128 .f32) (gi si : IVec S600000 32) :
    FVec Ideal S100000x128 .f32 :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 si)
      (subf
        (Host.gather gather_S100000x128_S600000x1_S600000x128_1_0_n_n_0_1_1128 x
          (broadcastInDim S600000x1 ![0] bcast_S600000_S600000x1_0
            (select (cmpi .slt gi (broadcastInDim S600000 ![] bcast_S_S600000 (constantI S_ 32 0#32)))
              (addi gi (broadcastInDim S600000 ![] bcast_S_S600000 (constantI S_ 32 100000#32))) gi)))
        e))
    (broadcastInDim S100000x128 ![0, 1] bcast_S100000x1_S100000x128_0_1
      (broadcastInDim S100000x1 ![0] bcast_S100000_S100000x1_0
        (maximumf
          (Host.scatterAdd scatter_S100000_S600000x1_S600000_n_0_0_1
            (broadcastInDim S100000 ![] bcast_S_S100000 (constant S_ .f32 0x00000000#32))
            (broadcastInDim S600000x1 ![0] bcast_S600000_S600000x1_0 si)
            (broadcastInDim S600000 ![] bcast_S_S600000 (constant S_ .f32 0x3F800000#32)))
          (broadcastInDim S100000 ![] bcast_S_S100000 (constant S_ .f32 0x3F800000#32)))))

/-- An extended real that is neither infinity is a real number. -/
private theorem real_of_fin {a : EReal} (h : a ≠ ⊤ ∧ a ≠ ⊥) : ∃ y : ℝ, a = (y : EReal) :=
  ⟨a.toReal, (EReal.coe_toReal h.1 h.2).symm⟩

/-- A real number is neither infinity. -/
private theorem fin_coe (y : ℝ) : (y : EReal) ≠ ⊤ ∧ (y : EReal) ≠ ⊥ :=
  ⟨EReal.coe_ne_top y, EReal.coe_ne_bot y⟩

/-- A finite sum of real numbers, some of them replaced by zero, is a real number. -/
private theorem sum_ite_real {ι : Type} (s : Finset ι) (p : ι → Prop) [DecidablePred p] (u : ι → EReal)
    (hu : ∀ k, ∃ y : ℝ, u k = (y : EReal)) : ∃ y : ℝ, (∑ k ∈ s, if p k then u k else 0) = (y : EReal) := by
  classical
  induction s using Finset.induction_on with
  | empty => exact ⟨0, by rw [Finset.sum_empty]; rfl⟩
  | insert a s ha ih =>
    obtain ⟨y, hy⟩ := ih
    obtain ⟨z, hz⟩ := hu a
    rw [Finset.sum_insert ha, hy]
    by_cases hp : p a
    · rw [if_pos hp, hz]
      exact ⟨z + y, (EReal.coe_add z y).symm⟩
    · rw [if_neg hp, zero_add]
      exact ⟨y, rfl⟩

/-- A finite start value plus such a sum of finite terms is finite. -/
private theorem add_sum_ite_fin {ι : Type} (s : Finset ι) (p : ι → Prop) [DecidablePred p] (a : EReal) (u : ι → EReal)
    (ha : a ≠ ⊤ ∧ a ≠ ⊥) (hu : ∀ k, u k ≠ ⊤ ∧ u k ≠ ⊥) :
    (a + ∑ k ∈ s, if p k then u k else 0) ≠ ⊤ ∧ (a + ∑ k ∈ s, if p k then u k else 0) ≠ ⊥ := by
  obtain ⟨b, hb⟩ := real_of_fin ha
  obtain ⟨y, hy⟩ := sum_ite_real s p u (fun k => real_of_fin (hu k))
  rw [hb, hy, ← EReal.coe_add]
  exact fin_coe _

/-- Every entry is a real number other than zero. -/
private def NzReal {ι : Type} (v : ι → EReal) : Prop := ∀ i, ∃ y : ℝ, y ≠ 0 ∧ v i = (y : EReal)

/-- A broadcast reads its operand somewhere. -/
private theorem bcast_read {s t : Shape} {α : Type} (dims : Fin s.rank → Fin t.rank) (h : s.BroadcastsInDim t dims)
    (v : s.Idx → α) (j : t.Idx) : ∃ k, broadcastInDim t dims h v j = v k := by
  unfold broadcastInDim
  exact ⟨_, rfl⟩

/-- A broadcast of a finite array is finite. -/
private theorem bcast_finite {s t : Shape} (dims : Fin s.rank → Fin t.rank) (h : s.BroadcastsInDim t dims)
    (v : FVec Ideal s .f32) (hv : Finite v) : Finite (broadcastInDim t dims h v) := by
  intro j
  obtain ⟨k, hk⟩ := bcast_read dims h v j
  rw [hk]
  exact hv k

/-- A broadcast of an array of nonzero reals is one. -/
private theorem bcast_nz {s t : Shape} (dims : Fin s.rank → Fin t.rank) (h : s.BroadcastsInDim t dims)
    (v : FVec Ideal s .f32) (hv : NzReal v) : NzReal (broadcastInDim t dims h v) := by
  intro j
  obtain ⟨k, hk⟩ := bcast_read dims h v j
  rw [hk]
  exact hv k

/-- The zero pattern is finite everywhere. -/
private theorem zero_finite {s : Shape} : Finite (constant (F := Ideal) s .f32 0x00000000#32) := by
  intro i
  rw [constant_apply, Ideal.ofBits_zero_f32, show (0 : EReal) = ((0 : ℝ) : EReal) from rfl]
  exact fin_coe _

/-- The pattern of one is finite everywhere. -/
private theorem one_finite {s : Shape} : Finite (constant (F := Ideal) s .f32 0x3F800000#32) := by
  intro i
  rw [constant_apply, Ideal.ofBits_one_f32, show (1 : EReal) = ((1 : ℝ) : EReal) from rfl]
  exact fin_coe _

/-- A gather reads its operand somewhere: finite when the operand is. -/
private theorem gather_finite {s si t : Shape} {w : ℕ} (d : GatherDims s si t) (v : FVec Ideal s .f32) (idx : IVec si w)
    (hv : Finite v) : Finite (Host.gather d v idx) := by
  intro j
  unfold Host.gather
  exact hv _

/-- A difference of finite arrays is finite. -/
private theorem sub_finite {s : Shape} (a b : FVec Ideal s .f32) (ha : Finite a) (hb : Finite b) : Finite (subf a b) := by
  intro i
  obtain ⟨y, hy⟩ := real_of_fin (ha i)
  obtain ⟨z, hz⟩ := real_of_fin (hb i)
  rw [subf_apply, hy, hz, ← EReal.coe_sub]
  exact fin_coe _

/-- The per-node sums of finite rows onto a finite table are finite. -/
private theorem scatter_rows_finite (init : FVec Ideal S100000x128 .f32) (idx : IVec S600000x1 32)
    (upd : FVec Ideal S600000x128 .f32) (hi : Finite init) (hu : Finite upd) :
    Finite (Host.scatterAdd (F := Ideal) scatter_S100000x128_S600000x1_S600000x128_1_0_0_1 init idx upd) := by
  intro i
  obtain ⟨r, j, rfl⟩ : ∃ (r : Fin 100000) (j : Fin 128), i = ix2 r j := ⟨i 0, i 1, eq_ix2 i⟩
  rw [Cert.LibScatterRows.scatterAdd_rows_apply _ rfl rfl rfl rfl]
  exact add_sum_ite_fin Finset.univ (fun k : Fin 600000 => (idx (ix2 k (0 : Fin 1))).toInt = (r.val : ℤ)) _
    (fun k => upd (ix2 k j)) (hi _) (fun k => hu _)

/-- The per-node sums of finite scalars onto a finite vector are finite. -/
private theorem scatter_vec_finite (init : FVec Ideal S100000 .f32) (idx : IVec S600000x1 32)
    (upd : FVec Ideal S600000 .f32) (hi : Finite init) (hu : Finite upd) :
    Finite (Host.scatterAdd (F := Ideal) scatter_S100000_S600000x1_S600000_n_0_0_1 init idx upd) := by
  intro i
  obtain ⟨r, rfl⟩ : ∃ r : Fin 100000, i = ix1 r := ⟨i 0, eq_ix1 i⟩
  rw [Cert.LibScatterRows.scatterAdd_vec_apply _ rfl rfl rfl rfl]
  exact add_sum_ite_fin Finset.univ (fun k : Fin 600000 => (idx (ix2 k (0 : Fin 1))).toInt = (r.val : ℤ)) _
    (fun k => upd (ix1 k)) (hi _) (fun k => hu _)

/-- The larger of a finite number and one is a real number other than zero. -/
private theorem max_one_nz {s : Shape} (a b : FVec Ideal s .f32) (ha : Finite a) (hb : ∀ i, b i = 1) :
    NzReal (maximumf a b) := by
  intro i
  obtain ⟨y, hy⟩ := real_of_fin (ha i)
  rw [maximumf_apply, hb i, hy, show (1 : EReal) = ((1 : ℝ) : EReal) from rfl]
  rcases le_total y 1 with h | h
  · rw [max_eq_right (EReal.coe_le_coe_iff.2 h)]
    exact ⟨1, one_ne_zero, rfl⟩
  · rw [max_eq_left (EReal.coe_le_coe_iff.2 h)]
    exact ⟨y, (lt_of_lt_of_le one_pos h).ne', rfl⟩

/-- A finite array divided entry by entry by nonzero reals is finite. -/
private theorem div_finite {s : Shape} (a b : FVec Ideal s .f32) (ha : Finite a) (hb : NzReal b) :
    Finite (Host.divf a b) := by
  intro i
  obtain ⟨y, hy0, hy⟩ := hb i
  obtain ⟨z, hz⟩ := real_of_fin (ha i)
  rw [hostDivf_apply, hy, Ideal.div_coe hy0, hz, ← EReal.coe_mul]
  exact fin_coe _

/-- Finite node and edge features give finite means. -/
theorem meanAgg_finite (x : FVec Ideal S100000x128 .f32) (e : FVec Ideal S600000x128 .f32) (gi si : IVec S600000 32)
    (hx : Finite x) (he : Finite e) : Finite (meanAgg x e gi si) := by
  unfold meanAgg
  refine div_finite _ _ ?_ ?_
  · exact scatter_rows_finite _ _ _ (bcast_finite _ _ _ zero_finite)
      (sub_finite _ _ (gather_finite _ _ _ hx) he)
  · refine bcast_nz _ _ _ (bcast_nz _ _ _ (max_one_nz _ _ ?_ ?_))
    · exact scatter_vec_finite _ _ _ (bcast_finite _ _ _ zero_finite) (bcast_finite _ _ _ one_finite)
    · intro i
      obtain ⟨k, hk⟩ := bcast_read _ _ (constant (F := Ideal) S_ .f32 0x3F800000#32) i
      rw [hk, constant_apply, Ideal.ofBits_one_f32]

end Cert.HostPrefix

end
-- ==== Proof.PreFinite.lean ====
/-
  The precondition read: where the printed predicate is all ones, no entry of a float argument is infinite.
-/
import proofs.«429616_j5832565588650_3_alg».proof.Proof.Gen.Pre_finite_inputs
import proofs.«429616_j5832565588650_3_alg».proof.Proof.Spec
import Idealize.ShloMosaic.Lib.ReduceAll

set_option maxRecDepth 16384

noncomputable section

namespace Cert.PreFinite

open Cert.Pre_finite_inputs Cert.Spec
open Idealize.ShloMosaic Idealize.ShloMosaic.ValueIdx

/-- A shape of rank zero has one index. -/
instance : Subsingleton S_.Idx := ⟨fun a b => funext fun d => d.elim0⟩

/-- A truth value written as a one-bit word is the word 1 exactly when it is true. -/
theorem ofBool_one (b : Bool) : BitVec.ofBool b = 1#1 ↔ b = true := by cases b <;> decide

/-- The single-precision word with all exponent bits set and no fraction bit denotes plus infinity. -/
theorem ofBits_inf : Ideal.ofBits .f32 0x7F800000#32 = (⊤ : EReal) := by simp [Ideal.ofBits, Ideal.ieee]

/-- An extended real whose absolute value, the larger of it and its negation, lies below plus infinity is neither infinity. -/
theorem ne_top_bot_of_abs_lt (x : EReal) (h : max x (-x) < ⊤) : x ≠ ⊤ ∧ x ≠ ⊥ := by
  constructor
  · rintro rfl; simp at h
  · rintro rfl; simp at h

/-- One test of the precondition, over any shape: if the conjunction over every entry of "the absolute value is below plus
    infinity" came out true, every entry is finite. The conjunction over all axes being true gives the comparison at each
    entry; at the entry the comparison is the strict order of the extended reals against plus infinity. -/
theorem finite_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
        (constantI S_ 1 1#1) hr hu ix0 = 1#1) : Finite x := by
  intro i
  have hi := Host.reduce_andi_all _ _ hr hu ix0 e i
  change Ideal.cmp .olt (max (x i) (-(x i))) (Ideal.ofBits .f32 0x7F800000#32) = 1#1 at hi
  rw [ofBits_inf] at hi
  change BitVec.ofBool (decide (max (x i) (-(x i)) < ⊤)) = 1#1 at hi
  exact ne_top_bot_of_abs_lt (x i) (of_decide_eq_true ((ofBool_one _).1 hi))

/-- From the precondition to finiteness of the ten float arguments' entries (the eight the proof uses). -/
theorem finite_of_pre (a0 : FVec Ideal S100000x128 .f32) (a1 : FVec Ideal S600000x128 .f32) (a2 a3 : IVec S600000 32)
    (a4 : FVec Ideal S128x128 .f32) (a5 : FVec Ideal S128 .f32) (a6 : FVec Ideal S128x128 .f32) (a7 : FVec Ideal S128 .f32)
    (a8 : FVec Ideal S128x128 .f32) (a9 a10 a11 : FVec Ideal S128 .f32)
    (h : Cert.Pre_finite_inputs.fn (F := Ideal) a0 a1 a2 a3 a4 a5 a6 a7 a8 a9 a10 a11 = fun _ => 1#1) :
    Finite a0 ∧ Finite a1 ∧ Finite a4 ∧ Finite a5 ∧ Finite a6 ∧ Finite a7 ∧ Finite a8 ∧ Finite a9 := by
  have h0 := congrFun h ix0
  simp only [fn, fn_part1, fn_part2, andi, IntOp.andi_eq_one] at h0
  obtain ⟨⟨⟨⟨⟨⟨⟨⟨⟨e0, e1⟩, e4⟩, e5⟩, e6⟩, e7⟩, e8⟩, e9⟩, e10⟩, e11⟩ := h0
  exact ⟨finite_of_all a0 _ _ _ e0, finite_of_all a1 _ _ _ e1, finite_of_all a4 _ _ _ e4, finite_of_all a5 _ _ _ e5,
    finite_of_all a6 _ _ _ e6, finite_of_all a7 _ _ _ e7, finite_of_all a8 _ _ _ e8, finite_of_all a9 _ _ _ e9⟩

end Cert.PreFinite

end
-- ==== Proof.RefSide.lean ====
/-
  The reference's result, entry by entry: the run's composed term read one operation at a time down to the two mean
  aggregates, the node table, the weight tables and the bias, scale and shift rows.
-/
import proofs.«429616_j5832565588650_3_alg».proof.Proof.Gen.ReferenceIdeal.Run
import proofs.«429616_j5832565588650_3_alg».proof.Proof.Gen.ReferenceIdeal.Read
import proofs.«429616_j5832565588650_3_alg».proof.Proof.Spec
import proofs.«429616_j5832565588650_3_alg».proof.Proof.HostPrefix

set_option maxRecDepth 16384

noncomputable section

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx Idealize.SL.Sem
open scoped BigOperators

/-! ## The two mean aggregates

Both programs spell the same host computation; the two spellings differ in the order of the two operands of the
maximum that keeps the row count at least one, and in which program's copy of the dimension records they name. -/

/-- The gather's dimension record is the same literal record in both programs. -/
theorem gather_rec_eq :
    Cert.ReferenceIdeal.gather_S100000x128_S600000x1_S600000x128_1_0_n_n_0_1_1128
      = Cert.KernelIdeal.gather_S100000x128_S600000x1_S600000x128_1_0_n_n_0_1_1128 := rfl

/-- So is the record of the scatter of rows. -/
theorem scatter_rows_rec_eq :
    Cert.ReferenceIdeal.scatter_S100000x128_S600000x1_S600000x128_1_0_0_1
      = Cert.KernelIdeal.scatter_S100000x128_S600000x1_S600000x128_1_0_0_1 := rfl

/-- And the record of the scatter of ones that counts each node's rows. -/
theorem scatter_count_rec_eq :
    Cert.ReferenceIdeal.scatter_S100000_S600000x1_S600000_n_0_0_1
      = Cert.KernelIdeal.scatter_S100000_S600000x1_S600000_n_0_0_1 := rfl

/-- The maximum of two arrays does not depend on the order of the two. -/
theorem maximumf_comm {s : Shape} (a b : FVec Ideal s .f32) : maximumf a b = maximumf b a :=
  funext fun i => max_comm (a i) (b i)

/-- The reference's forward mean aggregate is the shared host computation on (source, destination). -/
theorem hout_eq (x0 : FVec Ideal S100000x128 .f32) (x1 : FVec Ideal S600000x128 .f32) (x2 x3 : IVec S600000 32) :
    val_main_v18 (F := Ideal) x0 x1 x2 x3 = Cert.HostPrefix.meanAgg x0 x1 x2 x3 := by
  unfold val_main_v18 val_main_v10 val_main_v17 val_main_v16 val_main_v15 val_main_v14 val_main_v13 val_main_v12
    val_main_v11 val_main_v9 val_main_v8 val_main_v7 val_main_v6 val_main_v5 val_main_v4 val_main_v3 val_main_v2
    val_main_v1 val_main_v0 val_main_c val_main_c_0 val_main_cst val_main_cst_1 val_main_cst_2 val_main_call0_v1
    val_main_call0_v0 val_main_cst_3 Cert.HostPrefix.meanAgg
  rw [gather_rec_eq, scatter_rows_rec_eq, scatter_count_rec_eq, maximumf_comm]
  rfl

/-- The reversed one is the same computation with the two index lists exchanged. -/
theorem hin_eq (x0 : FVec Ideal S100000x128 .f32) (x1 : FVec Ideal S600000x128 .f32) (x2 x3 : IVec S600000 32) :
    val_main_v37 (F := Ideal) x0 x1 x2 x3 = Cert.HostPrefix.meanAgg x0 x1 x3 x2 := by
  unfold val_main_v37 val_main_v29 val_main_v36 val_main_v35 val_main_v34 val_main_v33 val_main_v32 val_main_v31
    val_main_v30 val_main_v28 val_main_v27 val_main_v26 val_main_v25 val_main_v24 val_main_v23 val_main_v22 val_main_v21
    val_main_v20 val_main_v19 val_main_c_4 val_main_c_5 val_main_cst_6 val_main_cst_7 val_main_cst_8 val_main_call1_v1
    val_main_call1_v0 val_main_cst_9 Cert.HostPrefix.meanAgg
  rw [gather_rec_eq, scatter_rows_rec_eq, scatter_count_rec_eq, maximumf_comm]
  rfl

/-! ## Where each layout operation reads

Each layout operation of the reference reads its operand at an index computed from the result's index. At an index
given by its coordinates these are again indices given by coordinates: a contraction reads row `r` of its left operand
and column `j` of its right one at position `k`, a transpose exchanges the two coordinates, a row laid over all the
rows of a table is read at its column, and a sum down a column reads the column's entries. -/

theorem lidx39 (r : Fin 100000) (j k : Fin 128) : lidx_main_v39 (ix2 r j) k = ix2 r k :=
  funext fun a => Fin.ext (by match a with | ⟨0, _⟩ => rfl | ⟨1, _⟩ => rfl)
theorem ridx39 (r : Fin 100000) (j k : Fin 128) : ridx_main_v39 (ix2 r j) k = ix2 k j :=
  funext fun a => Fin.ext (by match a with | ⟨0, _⟩ => rfl | ⟨1, _⟩ => rfl)
theorem lidx46 (r : Fin 100000) (j k : Fin 128) : lidx_main_v46 (ix2 r j) k = ix2 r k :=
  funext fun a => Fin.ext (by match a with | ⟨0, _⟩ => rfl | ⟨1, _⟩ => rfl)
theorem ridx46 (r : Fin 100000) (j k : Fin 128) : ridx_main_v46 (ix2 r j) k = ix2 k j :=
  funext fun a => Fin.ext (by match a with | ⟨0, _⟩ => rfl | ⟨1, _⟩ => rfl)
theorem lidx54 (r : Fin 100000) (j k : Fin 128) : lidx_main_v54 (ix2 r j) k = ix2 r k :=
  funext fun a => Fin.ext (by match a with | ⟨0, _⟩ => rfl | ⟨1, _⟩ => rfl)
theorem ridx54 (r : Fin 100000) (j k : Fin 128) : ridx_main_v54 (ix2 r j) k = ix2 k j :=
  funext fun a => Fin.ext (by match a with | ⟨0, _⟩ => rfl | ⟨1, _⟩ => rfl)

theorem idx38 (k j : Fin 128) : idx_main_v38 (ix2 k j) = ix2 j k :=
  funext fun a => Fin.ext (by match a with | ⟨0, _⟩ => rfl | ⟨1, _⟩ => rfl)
theorem idx45 (k j : Fin 128) : idx_main_v45 (ix2 k j) = ix2 j k :=
  funext fun a => Fin.ext (by match a with | ⟨0, _⟩ => rfl | ⟨1, _⟩ => rfl)
theorem idx53 (k j : Fin 128) : idx_main_v53 (ix2 k j) = ix2 j k :=
  funext fun a => Fin.ext (by match a with | ⟨0, _⟩ => rfl | ⟨1, _⟩ => rfl)

theorem idx41 (r : Fin 100000) (j : Fin 128) : idx_main_v41 (ix2 r j) = ix2 (0 : Fin 1) j :=
  funext fun a => Fin.ext (by match a with | ⟨0, _⟩ => rfl | ⟨1, _⟩ => rfl)
theorem idx48 (r : Fin 100000) (j : Fin 128) : idx_main_v48 (ix2 r j) = ix2 (0 : Fin 1) j :=
  funext fun a => Fin.ext (by match a with | ⟨0, _⟩ => rfl | ⟨1, _⟩ => rfl)
theorem idx56 (r : Fin 100000) (j : Fin 128) : idx_main_v56 (ix2 r j) = ix2 (0 : Fin 1) j :=
  funext fun a => Fin.ext (by match a with | ⟨0, _⟩ => rfl | ⟨1, _⟩ => rfl)
theorem idx65 (r : Fin 100000) (j : Fin 128) : idx_main_v65 (ix2 r j) = ix2 (0 : Fin 1) j :=
  funext fun a => Fin.ext (by match a with | ⟨0, _⟩ => rfl | ⟨1, _⟩ => rfl)
theorem idx72 (r : Fin 100000) (j : Fin 128) : idx_main_v72 (ix2 r j) = ix2 (0 : Fin 1) j :=
  funext fun a => Fin.ext (by match a with | ⟨0, _⟩ => rfl | ⟨1, _⟩ => rfl)
theorem idx78 (r : Fin 100000) (j : Fin 128) : idx_main_v78 (ix2 r j) = ix2 (0 : Fin 1) j :=
  funext fun a => Fin.ext (by match a with | ⟨0, _⟩ => rfl | ⟨1, _⟩ => rfl)
theorem idx81 (r : Fin 100000) (j : Fin 128) : idx_main_v81 (ix2 r j) = ix2 (0 : Fin 1) j :=
  funext fun a => Fin.ext (by match a with | ⟨0, _⟩ => rfl | ⟨1, _⟩ => rfl)
theorem idx84 (r : Fin 100000) (j : Fin 128) : idx_main_v84 (ix2 r j) = ix2 (0 : Fin 1) j :=
  funext fun a => Fin.ext (by match a with | ⟨0, _⟩ => rfl | ⟨1, _⟩ => rfl)

theorem idx40 (j : Fin 128) : idx_main_v40 (ix2 (0 : Fin 1) j) = ix1 j :=
  funext fun a => Fin.ext (by match a with | ⟨0, _⟩ => rfl)
theorem idx47 (j : Fin 128) : idx_main_v47 (ix2 (0 : Fin 1) j) = ix1 j :=
  funext fun a => Fin.ext (by match a with | ⟨0, _⟩ => rfl)
theorem idx55 (j : Fin 128) : idx_main_v55 (ix2 (0 : Fin 1) j) = ix1 j :=
  funext fun a => Fin.ext (by match a with | ⟨0, _⟩ => rfl)
theorem idx64 (j : Fin 128) : idx_main_v64 (ix2 (0 : Fin 1) j) = ix1 j :=
  funext fun a => Fin.ext (by match a with | ⟨0, _⟩ => rfl)
theorem idx71 (j : Fin 128) : idx_main_v71 (ix2 (0 : Fin 1) j) = ix1 j :=
  funext fun a => Fin.ext (by match a with | ⟨0, _⟩ => rfl)
theorem idx77 (j : Fin 128) : idx_main_v77 (ix2 (0 : Fin 1) j) = ix1 j :=
  funext fun a => Fin.ext (by match a with | ⟨0, _⟩ => rfl)
theorem idx80 (j : Fin 128) : idx_main_v80 (ix2 (0 : Fin 1) j) = ix1 j :=
  funext fun a => Fin.ext (by match a with | ⟨0, _⟩ => rfl)
theorem idx83 (j : Fin 128) : idx_main_v83 (ix2 (0 : Fin 1) j) = ix1 j :=
  funext fun a => Fin.ext (by match a with | ⟨0, _⟩ => rfl)

theorem idx61 (j : Fin 128) (k : Fin 100000) : idx_main_v61 (ix1 j) k = ix2 k j :=
  funext fun a => Fin.ext (by match a with | ⟨0, _⟩ => rfl | ⟨1, _⟩ => rfl)
theorem idx68 (j : Fin 128) (k : Fin 100000) : idx_main_v68 (ix1 j) k = ix2 k j :=
  funext fun a => Fin.ext (by match a with | ⟨0, _⟩ => rfl | ⟨1, _⟩ => rfl)

/-! ## The fused table -/

/-- The reference's fused table at an entry: each of the three contractions read against the transposed weight table,
    its bias added, a third of it taken, and the three added left to right. -/
theorem h_apply (x0 : FVec Ideal S100000x128 .f32) (x1 : FVec Ideal S600000x128 .f32) (x2 x3 : IVec S600000 32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (r : Fin 100000) (j : Fin 128) :
    val_main_v60 (F := Ideal) x0 x1 x2 x3 x4 x5 x6 x7 x8 x9 (ix2 r j)
      = fuseR (val_main_v18 (F := Ideal) x0 x1 x2 x3) (val_main_v37 (F := Ideal) x0 x1 x2 x3) x0 x4 x6 x8 x5 x7 x9 r j := by
  rw [val_main_v60_apply, val_main_v52_apply, val_main_v44_apply, val_main_v51_apply, val_main_v59_apply,
    val_main_v42_apply, val_main_v49_apply, val_main_v57_apply, val_main_v39_apply, val_main_v46_apply, val_main_v54_apply,
    val_main_v43_apply, val_main_v50_apply, val_main_v58_apply, val_main_cst_10_apply, val_main_cst_11_apply,
    val_main_cst_12_apply, val_main_v41_apply, val_main_v48_apply, val_main_v56_apply, val_main_v40_apply,
    val_main_v47_apply, val_main_v55_apply]
  simp only [val_main_v38_apply, val_main_v45_apply, val_main_v53_apply, lidx39, ridx39, lidx46, ridx46, lidx54, ridx54,
    idx38, idx45, idx53, idx41, idx48, idx56, idx40, idx47, idx55, Ideal.addf_def, Ideal.mulf_def, Ideal.ofBits_def]
  unfold fuseR dotT third
  rfl

/-! ## The column statistics -/

/-- The reference's column mean: the column of the fused table added up and divided by the number of rows. -/
theorem mean_apply (x0 : FVec Ideal S100000x128 .f32) (x1 : FVec Ideal S600000x128 .f32) (x2 x3 : IVec S600000 32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (j : Fin 128) :
    val_main_v63 (F := Ideal) x0 x1 x2 x3 x4 x5 x6 x7 x8 x9 (ix1 j)
      = meanR (fuseR (val_main_v18 (F := Ideal) x0 x1 x2 x3) (val_main_v37 (F := Ideal) x0 x1 x2 x3) x0 x4 x6 x8 x5 x7 x9) j := by
  rw [val_main_v63_apply, val_main_v61_apply, val_main_v62_apply, val_main_cst_13_apply, val_main_cst_14_apply]
  simp only [idx61, h_apply, Ideal.hostDivf_def, Ideal.ofBits_def, Ideal.ofBits_zero_f32, zero_add]
  unfold meanR Cert.Spec.count
  rfl

/-- An entry's deviation from its column's mean. -/
theorem dev_apply (x0 : FVec Ideal S100000x128 .f32) (x1 : FVec Ideal S600000x128 .f32) (x2 x3 : IVec S600000 32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (r : Fin 100000) (j : Fin 128) :
    val_main_v66 (F := Ideal) x0 x1 x2 x3 x4 x5 x6 x7 x8 x9 (ix2 r j)
      = fuseR (val_main_v18 (F := Ideal) x0 x1 x2 x3) (val_main_v37 (F := Ideal) x0 x1 x2 x3) x0 x4 x6 x8 x5 x7 x9 r j
        - meanR (fuseR (val_main_v18 (F := Ideal) x0 x1 x2 x3) (val_main_v37 (F := Ideal) x0 x1 x2 x3) x0 x4 x6 x8 x5 x7 x9) j := by
  rw [val_main_v66_apply, val_main_v65_apply, idx65, val_main_v64_apply, idx64, h_apply, mean_apply, Ideal.subf_def]

/-- Its square. -/
theorem sq_apply (x0 : FVec Ideal S100000x128 .f32) (x1 : FVec Ideal S600000x128 .f32) (x2 x3 : IVec S600000 32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (r : Fin 100000) (j : Fin 128) :
    val_main_v67 (F := Ideal) x0 x1 x2 x3 x4 x5 x6 x7 x8 x9 (ix2 r j)
      = (fuseR (val_main_v18 (F := Ideal) x0 x1 x2 x3) (val_main_v37 (F := Ideal) x0 x1 x2 x3) x0 x4 x6 x8 x5 x7 x9 r j
          - meanR (fuseR (val_main_v18 (F := Ideal) x0 x1 x2 x3) (val_main_v37 (F := Ideal) x0 x1 x2 x3) x0 x4 x6 x8 x5 x7 x9) j)
        * (fuseR (val_main_v18 (F := Ideal) x0 x1 x2 x3) (val_main_v37 (F := Ideal) x0 x1 x2 x3) x0 x4 x6 x8 x5 x7 x9 r j
          - meanR (fuseR (val_main_v18 (F := Ideal) x0 x1 x2 x3) (val_main_v37 (F := Ideal) x0 x1 x2 x3) x0 x4 x6 x8 x5 x7 x9) j) := by
  rw [val_main_v67_apply, dev_apply, Ideal.mulf_def]

/-- The reference's column variance: the squared deviations from the column mean added up and divided by the number
    of rows. -/
theorem var_apply (x0 : FVec Ideal S100000x128 .f32) (x1 : FVec Ideal S600000x128 .f32) (x2 x3 : IVec S600000 32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (j : Fin 128) :
    val_main_v70 (F := Ideal) x0 x1 x2 x3 x4 x5 x6 x7 x8 x9 (ix1 j)
      = varR (fuseR (val_main_v18 (F := Ideal) x0 x1 x2 x3) (val_main_v37 (F := Ideal) x0 x1 x2 x3) x0 x4 x6 x8 x5 x7 x9) j := by
  rw [val_main_v70_apply, val_main_v68_apply, val_main_v69_apply, val_main_cst_15_apply, val_main_cst_16_apply]
  simp only [idx68, sq_apply, Ideal.hostDivf_def, Ideal.ofBits_def, Ideal.ofBits_zero_f32, zero_add]
  unfold varR Cert.Spec.count
  rfl

/-! ## The result -/

/-- The reference's result entry. -/
theorem ref_value (x0 : FVec Ideal S100000x128 .f32) (x1 : FVec Ideal S600000x128 .f32) (x2 x3 : IVec S600000 32)
    (x4 : FVec Ideal S128x128 .f32) (x5 : FVec Ideal S128 .f32) (x6 : FVec Ideal S128x128 .f32) (x7 : FVec Ideal S128 .f32)
    (x8 : FVec Ideal S128x128 .f32) (x9 x10 x11 : FVec Ideal S128 .f32) (r : Fin 100000) (j : Fin 128) :
    val_main_v85 (F := Ideal) x0 x1 x2 x3 x4 x5 x6 x7 x8 x9 x10 x11 (ix2 r j)
      = outR (fuseR (val_main_v18 (F := Ideal) x0 x1 x2 x3) (val_main_v37 (F := Ideal) x0 x1 x2 x3) x0 x4 x6 x8 x5 x7 x9) x10 x11 r j := by
  rw [val_main_v85_apply, val_main_v82_apply, val_main_v79_apply, val_main_v73_apply, val_main_v72_apply, val_main_v78_apply,
    val_main_v81_apply, val_main_v84_apply, idx72, idx78, idx81, idx84, val_main_v71_apply, val_main_v77_apply,
    val_main_v80_apply, val_main_v83_apply, idx71, idx77, idx80, idx83, val_main_v76_apply, val_main_v75_apply,
    val_main_v74_apply, val_main_cst_17_apply, h_apply, mean_apply, var_apply]
  simp only [Ideal.addf_def, Ideal.mulf_def, Ideal.subf_def, Ideal.hostUnary_rsqrt_def, Ideal.ofBits_def]
  unfold outR Cert.Spec.norm eps
  rfl

end Cert.ReferenceIdeal.RefValue

end
-- ==== Proof.KRegion0.lean ====
/-
  What the first kernel leaves in its two result arrays, entry by entry, from the arrays it is entered with.
  Grid point t takes rows 5000 t .. 5000 t + 4999 of the three row tables and the three whole weight tables: it writes the
  fused rows back in place, and into row t of the statistics array the column sums of its fused rows (position 0)
  and of their squares (position 1).

  The road: one contraction read at an entry (left block against the transposed table); the fused block, its column
  sums and the column sums of its squares at an entry, over the seven blocks a point loads; what the two stores into
  the statistics buffer leave at each position; each block as rows of its array (row p of point t's block is row
  5000 t + p; a weight table and the bias row are handed whole); so every point writes back its rows of ONE
  whole-array function, and since the 20 blocks fill each result array, the array ends equal to that function.
-/
import proofs.«429616_j5832565588650_3_alg».proof.Proof.Gen.KernelIdeal.Frame
import proofs.«429616_j5832565588650_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

/-- The kernel's fused entry over the bias row it is handed already summed (a 1 x 128 array). -/
def fuse1 (ho hi x : SNC.Idx → EReal) (wo wi ws : SCC.Idx → EReal) (bc : (⟨2, ![1, 128]⟩ : Shape).Idx → EReal)
    (r : Fin 100000) (j : Fin 128) : EReal :=
  third * (((dotT ho wo r j + dotT hi wi r j) + dotT x ws r j) + bc (ix2 (0 : Fin 1) j))

/-! ## One contraction of the kernel read at an entry

The kernel's contraction pairs axis 1 of the left block with axis 1 of the right table: entry (p, q) of the
product is the sum over k of left (p, k) times right (q, k), the left block against the transposed table. -/

/-- The left operand's row coordinate is the result's row. -/
theorem dotK_lhs_0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
/-- The left operand's column coordinate is the contraction position. -/
theorem dotK_lhs_1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
/-- The right operand's row coordinate is the result's column. -/
theorem dotK_rhs_0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
/-- The right operand's column coordinate is the contraction position. -/
theorem dotK_rhs_1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-- Entry (p, q) of the product into a zero accumulator: the sum over k of left (p, k) times right (q, k). -/
theorem matmulT_apply (l : FVec Ideal S5000x128 .bf16) (w : FVec Ideal S128x128 .bf16) (p : Fin 5000) (q : Fin 128) :
    matmul dot_S5000x128_S128x128_S5000x128_1_1_0_0_n_n none l w (constant (F := Ideal) S5000x128 .f32 0x00000000#32) (ix2 p q)
      = ∑ k : Fin 128, l (ix2 p k) * w (ix2 q k) := by
  simp only [matmul]
  rw [Ideal.matmul_constant_zero_apply, ← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q) ((contrEquiv1 dot_S5000x128_S128x128_S5000x128_1_1_0_0_n_n 128 rfl rfl).symm k) = ix2 p k := funext fun a => Fin.ext (by
    match a with
    | ⟨0, _⟩ => exact dotK_lhs_0 _ _
    | ⟨1, _⟩ => exact (dotK_lhs_1 _ _).trans hk)
  have er : dot_S5000x128_S128x128_S5000x128_1_1_0_0_n_n.rhsIdx (ix2 p q) ((contrEquiv1 dot_S5000x128_S128x128_S5000x128_1_1_0_0_n_n 128 rfl rfl).symm k) = ix2 q k := funext fun a => Fin.ext (by
    match a with
    | ⟨0, _⟩ => exact dotK_rhs_0 _ _
    | ⟨1, _⟩ => exact (dotK_rhs_1 _ _).trans hk)
  rw [el, er]

/-! ## The body's values at an entry

Over the seven blocks the body loads: three 5000 x 128 row blocks, three 128 x 128 weight tables, the 1 x 128 bias row. -/

/-- The fused block at (p, q): a third of the three contractions added left to right plus the bias at q. -/
theorem fused_apply (x0 x1 x2 : Vec Ideal S5000x128 .f32) (x3 x4 x5 : Vec Ideal S128x128 .f32) (x6 : Vec Ideal S1x128 .f32) (p : Fin 5000) (q : Fin 128) :
    k0_pay3 x0 x1 x2 x3 x4 x5 x6 (ix2 p q)
      = third * ((((∑ k : Fin 128, x0 (ix2 p k) * x3 (ix2 q k)) + (∑ k : Fin 128, x1 (ix2 p k) * x4 (ix2 q k)))
          + (∑ k : Fin 128, x2 (ix2 p k) * x5 (ix2 q k))) + x6 (ix2 (0 : Fin 1) q)) := by
  unfold k0_pay3
  simp only [mulf_apply, addf_apply, broadcast_apply, shapeCast_self]
  rw [matmulT_apply, matmulT_apply, matmulT_apply, broadcastTo_1b_ab_apply]
  simp only [truncf_apply]
  rfl

/-- A sum down the 5000 rows of a block into the zero word: column q is the sum over p of the entries (p, q). -/
theorem colsum_apply (v : FVec Ideal S5000x128 .f32) (q : Fin 128) :
    multiReduction (F := Ideal) .add [0] S128 v 0x00000000#32 reduces_S5000x128_S128 (.inl rfl) rfl (ix1 q)
      = ∑ p : Fin 5000, v (ix2 p q) := by
  refine (Ideal.multiReduction_add_single v 0x00000000#32 reduces_S5000x128_S128 (.inl rfl) rfl (ix1 q)).trans ?_
  refine Finset.sum_congr rfl fun p _ => congrArg v ?_
  funext a
  match a with
  | ⟨0, _⟩ => rfl
  | ⟨1, _⟩ => rfl

/-- The block's column sums, as the 1 x 128 row the body keeps: entry (0, q) is the sum over p of the fused block at (p, q). -/
theorem sums_apply (x0 x1 x2 : Vec Ideal S5000x128 .f32) (x3 x4 x5 : Vec Ideal S128x128 .f32) (x6 : Vec Ideal S1x128 .f32) (q : Fin 128) :
    k0_pay4 x0 x1 x2 x3 x4 x5 x6 (ix2 (0 : Fin 1) q) = ∑ p : Fin 5000, k0_pay3 x0 x1 x2 x3 x4 x5 x6 (ix2 p q) := by
  unfold k0_pay4
  exact (shapeCast_a_1a_apply _ shapeCasts_S128_S1x128 (0 : Fin 1) q).trans (colsum_apply _ q)

/-- The column sums of the squares: entry (0, q) is the sum over p of the fused block at (p, q) squared. -/
theorem sqsums_apply (x0 x1 x2 : Vec Ideal S5000x128 .f32) (x3 x4 x5 : Vec Ideal S128x128 .f32) (x6 : Vec Ideal S1x128 .f32) (q : Fin 128) :
    k0_pay5 x0 x1 x2 x3 x4 x5 x6 (ix2 (0 : Fin 1) q)
      = ∑ p : Fin 5000, k0_pay3 x0 x1 x2 x3 x4 x5 x6 (ix2 p q) * k0_pay3 x0 x1 x2 x3 x4 x5 x6 (ix2 p q) := by
  unfold k0_pay5
  exact (shapeCast_a_1a_apply _ shapeCasts_S128_S1x128 (0 : Fin 1) q).trans (colsum_apply _ q)

/-! ## What the body leaves in its two result buffers -/

/-- The zero offsets as the body's whole-buffer accesses spell them. -/
theorem zeros2 : (![0, 0] : Fin 2 → Nat) = fun _ => 0 := funext fun a => by fin_cases a <;> rfl

/-- The first result buffer holds the fused block. -/
theorem out7_eq (x0 x1 x2 : Vec Ideal S5000x128 .f32) (x3 x4 x5 : Vec Ideal S128x128 .f32) (x6 : Vec Ideal S1x128 .f32) : out0_7 x0 x1 x2 x3 x4 x5 x6 = k0_pay3 x0 x1 x2 x3 x4 x5 x6 := by
  unfold out0_7
  rw [View.canon_unit_zero zeros2]
  simp only [View.ld_unit_zero (S := S5000x128) zeros2, View.ld_unit_zero (S := S128x128) zeros2, View.ld_unit_zero (S := S1x128) zeros2]

/-- The second result buffer (1 x 2 x 128) at position 1: the later of the two stores, the sums of squares. -/
theorem out8_apply_1 (x0 x1 x2 : Vec Ideal S5000x128 .f32) (x3 x4 x5 : Vec Ideal S128x128 .f32) (x6 : Vec Ideal S1x128 .f32) (q : Fin 128) :
    out0_8 x0 x1 x2 x3 x4 x5 x6 (ix3 (0 : Fin 1) (1 : Fin 2) q) = k0_pay5 x0 x1 x2 x3 x4 x5 x6 (ix2 (0 : Fin 1) q) := by
  unfold out0_8
  simp only [View.ld_unit_zero (S := S5000x128) zeros2, View.ld_unit_zero (S := S128x128) zeros2, View.ld_unit_zero (S := S1x128) zeros2]
  have he : ix3 (0 : Fin 1) (1 : Fin 2) q = r0_4.emb (ix3 (0 : Fin 1) (0 : Fin 1) q) := funext fun a => Fin.ext (by
    match a with
    | ⟨0, _⟩ => rfl
    | ⟨1, _⟩ => rfl
    | ⟨2, _⟩ => show q.val = 0 + 1 * q.val; omega)
  rw [he, View.canon_cons_emb]
  unfold k0_pay2
  exact shapeCast_ab_1ab_apply _ shapeCasts_S1x128_S1x1x128 (0 : Fin 1) (0 : Fin 1) q

/-- At position 0 the later store does not reach, and the earlier one left the column sums. -/
theorem out8_apply_0 (x0 x1 x2 : Vec Ideal S5000x128 .f32) (x3 x4 x5 : Vec Ideal S128x128 .f32) (x6 : Vec Ideal S1x128 .f32) (q : Fin 128) :
    out0_8 x0 x1 x2 x3 x4 x5 x6 (ix3 (0 : Fin 1) (0 : Fin 2) q) = k0_pay4 x0 x1 x2 x3 x4 x5 x6 (ix2 (0 : Fin 1) q) := by
  unfold out0_8
  simp only [View.ld_unit_zero (S := S5000x128) zeros2, View.ld_unit_zero (S := S128x128) zeros2, View.ld_unit_zero (S := S1x128) zeros2]
  rw [View.canon_cons_of_not_mem]
  swap
  · show ix3 (0 : Fin 1) (0 : Fin 2) q ∉ (r0_4 : Rect S1x2x128).set
    rw [Rect.mem_set_unit]
    intro h
    have h1 : (1 : Nat) ≤ 0 := (h 1).1
    omega
  have he : ix3 (0 : Fin 1) (0 : Fin 2) q = r0_3.emb (ix3 (0 : Fin 1) (0 : Fin 1) q) := funext fun a => Fin.ext (by
    match a with
    | ⟨0, _⟩ => rfl
    | ⟨1, _⟩ => rfl
    | ⟨2, _⟩ => show q.val = 0 + 1 * q.val; omega)
  rw [he, View.canon_cons_emb]
  unfold k0_pay1
  exact shapeCast_ab_1ab_apply _ shapeCasts_S1x128_S1x1x128 (0 : Fin 1) (0 : Fin 1) q

/-! ## The blocks a grid point is handed, read off the arrays -/

variable (V : (c : Dev nD) → (b : Ref sig .tc) → Buf (Elt Ideal) ((c : Thread nD τ).loc b))

/-- The seven blocks at grid point t, each named at its own shape. -/
abbrev rowsO (c : Dev nD) (t : Fin cfg0.N) : Vec Ideal S5000x128 .f32 := iblk0 V c 0 t
abbrev rowsI (c : Dev nD) (t : Fin cfg0.N) : Vec Ideal S5000x128 .f32 := iblk0 V c 1 t
abbrev rowsX (c : Dev nD) (t : Fin cfg0.N) : Vec Ideal S5000x128 .f32 := iblk0 V c 2 t
abbrev tabO (c : Dev nD) (t : Fin cfg0.N) : Vec Ideal S128x128 .f32 := iblk0 V c 3 t
abbrev tabI (c : Dev nD) (t : Fin cfg0.N) : Vec Ideal S128x128 .f32 := iblk0 V c 4 t
abbrev tabS (c : Dev nD) (t : Fin cfg0.N) : Vec Ideal S128x128 .f32 := iblk0 V c 5 t
abbrev biasRow (c : Dev nD) (t : Fin cfg0.N) : Vec Ideal S1x128 .f32 := iblk0 V c 6 t

/-- The seven arrays the region is entered with, each named at its own shape. -/
abbrev arrO (c : Dev nD) : SNC.Idx → EReal := V c main_v33
abbrev arrI (c : Dev nD) : SNC.Idx → EReal := V c main_v38
abbrev arrX (c : Dev nD) : SNC.Idx → EReal := V c main_arg0
abbrev arrWo (c : Dev nD) : SCC.Idx → EReal := V c main_arg4
abbrev arrWi (c : Dev nD) : SCC.Idx → EReal := V c main_arg6
abbrev arrWs (c : Dev nD) : SCC.Idx → EReal := V c main_arg8
abbrev arrB (c : Dev nD) : (⟨2, ![1, 128]⟩ : Shape).Idx → EReal := V c main_v43

/-- Where each window's block sits at grid point t: the row windows and the first result at block (t, 0), the weight
    tables and the bias row at block (0, 0), the statistics at block (t, 0, 0). Decided over the 20 points. -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 3) = t.val ∧ win0_8.index t (1 : Fin 3) = 0 ∧ win0_8.index t (2 : Fin 3) = 0) :=
  (by decide +kernel : ∀ t : Fin grid0.N, _)

/-- Row p of the first row block at point t is row 5000 t + p of its array. -/
theorem rowsO_apply (c : Dev nD) (t : Fin cfg0.N) (p : Fin 5000) (k : Fin 128) (r : Fin 100000)
    (hr : r.val = 5000 * t.val + p.val) : rowsO V c t (ix2 p k) = arrO V c (ix2 r k) := by
  obtain ⟨⟨e0, e1⟩, -⟩ := block_indices t
  show iblk0 V c 0 t (ix2 p k) = _
  unfold iblk0
  rw [View.read_apply]
  show V c main_v33 _ = V c main_v33 _
  refine congrArg (V c main_v33) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The same for the second row block … -/
theorem rowsI_apply (c : Dev nD) (t : Fin cfg0.N) (p : Fin 5000) (k : Fin 128) (r : Fin 100000)
    (hr : r.val = 5000 * t.val + p.val) : rowsI V c t (ix2 p k) = arrI V c (ix2 r k) := by
  obtain ⟨-, ⟨e0, e1⟩, -⟩ := block_indices t
  show iblk0 V c 1 t (ix2 p k) = _
  unfold iblk0
  rw [View.read_apply]
  show V c main_v38 _ = V c main_v38 _
  refine congrArg (V c main_v38) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- … and the third. -/
theorem rowsX_apply (c : Dev nD) (t : Fin cfg0.N) (p : Fin 5000) (k : Fin 128) (r : Fin 100000)
    (hr : r.val = 5000 * t.val + p.val) : rowsX V c t (ix2 p k) = arrX V c (ix2 r k) := by
  obtain ⟨-, -, ⟨e0, e1⟩, -⟩ := block_indices t
  show iblk0 V c 2 t (ix2 p k) = _
  unfold iblk0
  rw [View.read_apply]
  show V c main_arg0 _ = V c main_arg0 _
  refine congrArg (V c main_arg0) (funext fun a => Fin.ext ?_)
  match a with
  | ⟨0, _⟩ => show win0_2.index t (0 : Fin 2) * 5000 + 1 * p.val = r.val; rw [e0, hr]; omega
  | ⟨1, _⟩ => show win0_2.index t (1 : Fin 2) * 128 + 1 * k.val = k.val; rw [e1]; omega

/-- A weight table's block is the whole table at every point. -/
theorem tabO_apply (c : Dev nD) (t : Fin cfg0.N) (q k : Fin 128) : tabO V c t (ix2 q k) = arrWo V c (ix2 q k) := by
  obtain ⟨-, -, -, ⟨e0, e1⟩, -⟩ := block_indices t
  show iblk0 V c 3 t (ix2 q k) = _
  unfold iblk0
  rw [View.read_apply]
  show V c main_arg4 _ = V c main_arg4 _
  refine congrArg (V c main_arg4) (funext fun a => Fin.ext ?_)
  match a with
  | ⟨0, _⟩ => show win0_3.index t (0 : Fin 2) * 128 + 1 * q.val = q.val; rw [e0]; omega
  | ⟨1, _⟩ => show win0_3.index t (1 : Fin 2) * 128 + 1 * k.val = k.val; rw [e1]; omega

theorem tabI_apply (c : Dev nD) (t : Fin cfg0.N) (q k : Fin 128) : tabI V c t (ix2 q k) = arrWi V c (ix2 q k) := by
  obtain ⟨-, -, -, -, ⟨e0, e1⟩, -⟩ := block_indices t
  show iblk0 V c 4 t (ix2 q k) = _
  unfold iblk0
  rw [View.read_apply]
  show V c main_arg6 _ = V c main_arg6 _
  refine congrArg (V c main_arg6) (funext fun a => Fin.ext ?_)
  match a with
  | ⟨0, _⟩ => show win0_4.index t (0 : Fin 2) * 128 + 1 * q.val = q.val; rw [e0]; omega
  | ⟨1, _⟩ => show win0_4.index t (1 : Fin 2) * 128 + 1 * k.val = k.val; rw [e1]; omega

theorem tabS_apply (c : Dev nD) (t : Fin cfg0.N) (q k : Fin 128) : tabS V c t (ix2 q k) = arrWs V c (ix2 q k) := by
  obtain ⟨-, -, -, -, -, ⟨e0, e1⟩, -⟩ := block_indices t
  show iblk0 V c 5 t (ix2 q k) = _
  unfold iblk0
  rw [View.read_apply]
  show V c main_arg8 _ = V c main_arg8 _
  refine congrArg (V c main_arg8) (funext fun a => Fin.ext ?_)
  match a with
  | ⟨0, _⟩ => show win0_5.index t (0 : Fin 2) * 128 + 1 * q.val = q.val; rw [e0]; omega
  | ⟨1, _⟩ => show win0_5.index t (1 : Fin 2) * 128 + 1 * k.val = k.val; rw [e1]; omega

/-- The bias row's block is the whole row at every point. -/
theorem biasRow_apply (c : Dev nD) (t : Fin cfg0.N) (q : Fin 128) :
    biasRow V c t (ix2 (0 : Fin 1) q) = arrB V c (ix2 (0 : Fin 1) q) := by
  obtain ⟨-, -, -, -, -, -, ⟨e0, e1⟩, -⟩ := block_indices t
  show iblk0 V c 6 t (ix2 (0 : Fin 1) q) = _
  unfold iblk0
  rw [View.read_apply]
  show V c main_v43 _ = V c main_v43 _
  refine congrArg (V c main_v43) (funext fun a => Fin.ext ?_)
  match a with
  | ⟨0, _⟩ => show win0_6.index t (0 : Fin 2) * 1 + 1 * 0 = 0; rw [e0]
  | ⟨1, _⟩ => show win0_6.index t (1 : Fin 2) * 128 + 1 * q.val = q.val; rw [e1]; omega

/-- So the fused block of point t at (p, q) is the fused entry of the arrays at row 5000 t + p and column q. -/
theorem fused_block (c : Dev nD) (t : Fin cfg0.N) (p : Fin 5000) (q : Fin 128) (r : Fin 100000)
    (hr : r.val = 5000 * t.val + p.val) :
    k0_pay3 (rowsO V c t) (rowsI V c t) (rowsX V c t) (tabO V c t) (tabI V c t) (tabS V c t) (biasRow V c t) (ix2 p q)
      = fuse1 (arrO V c) (arrI V c) (arrX V c) (arrWo V c) (arrWi V c) (arrWs V c) (arrB V c) r q := by
  rw [fused_apply]
  unfold fuse1 dotT
  rw [biasRow_apply V c t q]
  refine congrArg (third * ·) (congrArg (· + arrB V c (ix2 (0 : Fin 1) q)) ?_)
  refine congrArg₂ (· + ·) (congrArg₂ (· + ·) ?_ ?_) ?_
  · exact Finset.sum_congr rfl fun k _ => by rw [rowsO_apply V c t p k r hr, tabO_apply V c t q k]
  · exact Finset.sum_congr rfl fun k _ => by rw [rowsI_apply V c t p k r hr, tabI_apply V c t q k]
  · exact Finset.sum_congr rfl fun k _ => by rw [rowsX_apply V c t p k r hr, tabS_apply V c t q k]

/-! ## The first result array: the fused table -/

/-- The fused table as one array over the arrays the region is entered with. -/
def fusedArr (c : Dev nD) : SNC.Idx → EReal := fun i =>
  fuse1 (arrO V c) (arrI V c) (arrX V c) (arrWo V c) (arrWi V c) (arrWs V c) (arrB V c) ⟨(i 0).val, idx2_lt0 i⟩ ⟨(i 1).val, idx2_lt1 i⟩

/-- What point t writes back to the first result array is rows 5000 t .. 5000 t + 4999 of the fused table. -/
theorem fused_writeback (c : Dev nD) (t : Fin cfg0.N) :
    (dat0 (F := Ideal) V c).flushed 7 t = ((cfg0.win 7).blk t).view.read (Elt Ideal) (fusedArr V c) := by
  obtain ⟨-, -, -, -, -, -, -, ⟨e0, e1⟩, -⟩ := block_indices t
  have hN : t.val < 20 := by have h := t.isLt; have hn : cfg0.N = 20 := N_0; omega
  show (cfg0.win 7).cut (grid0.coords t) ((dat0 (F := Ideal) V c).after 7 t) = _
  rw [after0_7]
  funext j
  obtain ⟨p, q, rfl⟩ : ∃ (p : Fin 5000) (q : Fin 128), j = ix2 p q := ⟨j 0, j 1, eq_ix2 j⟩
  have hemb : ((cfg0.win 7).blk t).view.emb (ix2 p q) = ix2 (⟨5000 * t.val + p.val, by omega⟩ : Fin 100000) q :=
    funext fun a => Fin.ext (by
      match a with
      | ⟨0, _⟩ => show win0_7.index t (0 : Fin 2) * 5000 + 1 * p.val = 5000 * t.val + p.val; rw [e0]; omega
      | ⟨1, _⟩ => show win0_7.index t (1 : Fin 2) * 128 + 1 * q.val = q.val; rw [e1]; omega)
  show out0_7 (rowsO V c t) (rowsI V c t) (rowsX V c t) (tabO V c t) (tabI V c t) (tabS V c t) (biasRow V c t) (ix2 p q) = fusedArr V c (((cfg0.win 7).blk t).view.emb (ix2 p q))
  rw [hemb, out7_eq]
  exact fused_block V c t p q _ rfl

/-- An index of the first result array lies in point t's block iff each coordinate lies in the block's range. -/
theorem mem_block7 (t : Fin cfg0.N) (i : SNC.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v44_0).slice (win0_7.rect t)).set ↔ _
  rw [View.set_slice_whole, Rect.mem_set_unit]
  exact Iff.rfl

/-- Row r is written by point r / 5000: the 20 blocks fill the array. -/
theorem fused_cover (i : SNC.Idx) :
    ∃ t : Fin cfg0.N, (cfg0.win 7).flush t = true ∧ i ∈ ((cfg0.win 7).blk t).view.set := by
  have h0 : (i 0).val < 100000 := idx2_lt0 i
  have h1 : (i 1).val < 128 := idx2_lt1 i
  have hlt : (i 0).val / 5000 < cfg0.N := by rw [show cfg0.N = 20 from N_0]; omega
  obtain ⟨-, -, -, -, -, -, -, ⟨e0, e1⟩, -⟩ := block_indices ⟨(i 0).val / 5000, hlt⟩
  have e0' : win0_7.index ⟨(i 0).val / 5000, hlt⟩ (0 : Fin 2) = (i 0).val / 5000 := e0
  refine ⟨⟨(i 0).val / 5000, hlt⟩, flush0_7 _, ?_⟩
  rw [mem_block7]
  intro a
  match a with
  | ⟨0, _⟩ =>
    show win0_7.index ⟨(i 0).val / 5000, hlt⟩ (0 : Fin 2) * 5000 ≤ (i 0).val
      ∧ (i 0).val < win0_7.index ⟨(i 0).val / 5000, hlt⟩ (0 : Fin 2) * 5000 + 5000
    rw [e0']; omega
  | ⟨1, _⟩ =>
    show win0_7.index ⟨(i 0).val / 5000, hlt⟩ (1 : Fin 2) * 128 ≤ (i 1).val
      ∧ (i 1).val < win0_7.index ⟨(i 0).val / 5000, hlt⟩ (1 : Fin 2) * 128 + 128
    rw [e1]; omega

/-- The first result array after the region is the fused table. -/
theorem fused_final (c : Dev nD) : (dat0 (F := Ideal) V c).arrAt 7 cfg0.N = fusedArr V c :=
  (dat0 (F := Ideal) V c).arrAt_eq_of_cover 7 (fusedArr V c) (fun t _ => fused_writeback V c t) fused_cover

/-! ## The second result array: the statistics of each block -/

/-- The statistics array of a table h: row t holds, at position 0, the column sums of rows 5000 t .. 5000 t + 4999
    of h, and at position 1 the column sums of their squares. -/
def statsArr (h : Fin 100000 → Fin 128 → EReal) : (⟨3, ![20, 2, 128]⟩ : Shape).Idx → EReal := fun i =>
  if (i 1).val = 0 then ∑ r : Fin 5000, h (blockRow ⟨(i 0).val, (i 0).isLt⟩ r) ⟨(i 2).val, (i 2).isLt⟩
  else ∑ r : Fin 5000, h (blockRow ⟨(i 0).val, (i 0).isLt⟩ r) ⟨(i 2).val, (i 2).isLt⟩
        * h (blockRow ⟨(i 0).val, (i 0).isLt⟩ r) ⟨(i 2).val, (i 2).isLt⟩

theorem statsArr_zero (h : Fin 100000 → Fin 128 → EReal) (t : Fin 20) (q : Fin 128) :
    statsArr h (ix3 t (0 : Fin 2) q) = ∑ r : Fin 5000, h (blockRow t r) q := by
  unfold statsArr
  exact if_pos rfl

theorem statsArr_one (h : Fin 100000 → Fin 128 → EReal) (t : Fin 20) (q : Fin 128) :
    statsArr h (ix3 t (1 : Fin 2) q) = ∑ r : Fin 5000, h (blockRow t r) q * h (blockRow t r) q := by
  unfold statsArr
  exact if_neg (show ¬((1 : Fin 2).val = 0) by decide)

/-- What point t writes back to the second result array is row t of the statistics of the fused table. -/
theorem stats_writeback (c : Dev nD) (t : Fin cfg0.N) :
    (dat0 (F := Ideal) V c).flushed 8 t
      = ((cfg0.win 8).blk t).view.read (Elt Ideal) (statsArr (fuse1 (arrO V c) (arrI V c) (arrX V c) (arrWo V c) (arrWi V c) (arrWs V c) (arrB V c))) := by
  obtain ⟨-, -, -, -, -, -, -, -, ⟨e0, e1, e2⟩⟩ := block_indices t
  have hN : t.val < 20 := by have h := t.isLt; have hn : cfg0.N = 20 := N_0; omega
  show (cfg0.win 8).cut (grid0.coords t) ((dat0 (F := Ideal) V c).after 8 t) = _
  rw [after0_8]
  funext y
  obtain ⟨u, s, q, rfl⟩ : ∃ (u : Fin 1) (s : Fin 2) (q : Fin 128), y = ix3 u s q := ⟨y 0, y 1, y 2, eq_ix3 y⟩
  obtain rfl : u = 0 := Subsingleton.elim _ _
  have hemb : ((cfg0.win 8).blk t).view.emb (ix3 (0 : Fin 1) s q) = ix3 (⟨t.val, hN⟩ : Fin 20) s q :=
    funext fun a => Fin.ext (by
      match a with
      | ⟨0, _⟩ => show win0_8.index t (0 : Fin 3) * 1 + 1 * 0 = t.val; rw [e0]; omega
      | ⟨1, _⟩ => show win0_8.index t (1 : Fin 3) * 2 + 1 * s.val = s.val; rw [e1]; omega
      | ⟨2, _⟩ => show win0_8.index t (2 : Fin 3) * 128 + 1 * q.val = q.val; rw [e2]; omega)
  show out0_8 (rowsO V c t) (rowsI V c t) (rowsX V c t) (tabO V c t) (tabI V c t) (tabS V c t) (biasRow V c t) (ix3 (0 : Fin 1) s q)
    = statsArr (fuse1 (arrO V c) (arrI V c) (arrX V c) (arrWo V c) (arrWi V c) (arrWs V c) (arrB V c)) (((cfg0.win 8).blk t).view.emb (ix3 (0 : Fin 1) s q))
  rw [hemb]
  have hrow : ∀ p : Fin 5000, k0_pay3 (rowsO V c t) (rowsI V c t) (rowsX V c t) (tabO V c t) (tabI V c t) (tabS V c t) (biasRow V c t) (ix2 p q)
      = fuse1 (arrO V c) (arrI V c) (arrX V c) (arrWo V c) (arrWi V c) (arrWs V c) (arrB V c) (blockRow ⟨t.val, hN⟩ p) q := fun p => fused_block V c t p q _ rfl
  rcases s with ⟨_ | _ | n, hs⟩
  · refine (out8_apply_0 (rowsO V c t) (rowsI V c t) (rowsX V c t) (tabO V c t) (tabI V c t) (tabS V c t) (biasRow V c t) q).trans ((sums_apply (rowsO V c t) (rowsI V c t) (rowsX V c t) (tabO V c t) (tabI V c t) (tabS V c t) (biasRow V c t) q).trans ?_)
    refine Eq.trans ?_ (statsArr_zero _ ⟨t.val, hN⟩ q).symm
    exact Finset.sum_congr rfl fun p _ => hrow p
  · refine (out8_apply_1 (rowsO V c t) (rowsI V c t) (rowsX V c t) (tabO V c t) (tabI V c t) (tabS V c t) (biasRow V c t) q).trans ((sqsums_apply (rowsO V c t) (rowsI V c t) (rowsX V c t) (tabO V c t) (tabI V c t) (tabS V c t) (biasRow V c t) q).trans ?_)
    refine Eq.trans ?_ (statsArr_one _ ⟨t.val, hN⟩ q).symm
    exact Finset.sum_congr rfl fun p _ => by rw [hrow p]
  · exact absurd hs (by omega)

/-- An index of the second result array lies in point t's block iff each coordinate lies in the block's range. -/
theorem mem_block8 (t : Fin cfg0.N) (i : (⟨3, ![20, 2, 128]⟩ : Shape).Idx) :
    i ∈ ((cfg0.win 8).blk t).view.set ↔ ∀ a : Fin 3, win0_8.index t a * S1x2x128.size a ≤ (i a).val
      ∧ (i a).val < win0_8.index t a * S1x2x128.size a + S1x2x128.size a := by
  show i ∈ ((View.whole main_v44_1).slice (win0_8.rect t)).set ↔ _
  rw [View.set_slice_whole, Rect.mem_set_unit]
  exact Iff.rfl

/-- Row t is written by point t: the 20 blocks fill the array. -/
theorem stats_cover (i : (⟨3, ![20, 2, 128]⟩ : Shape).Idx) :
    ∃ t : Fin cfg0.N, (cfg0.win 8).flush t = true ∧ i ∈ ((cfg0.win 8).blk t).view.set := by
  have h0 : (i 0).val < 20 := (i 0).isLt
  have h1 : (i 1).val < 2 := (i 1).isLt
  have h2 : (i 2).val < 128 := (i 2).isLt
  have hlt : (i 0).val < cfg0.N := by rw [show cfg0.N = 20 from N_0]; exact h0
  obtain ⟨-, -, -, -, -, -, -, -, ⟨e0, e1, e2⟩⟩ := block_indices ⟨(i 0).val, hlt⟩
  have e0' : win0_8.index ⟨(i 0).val, hlt⟩ (0 : Fin 3) = (i 0).val := e0
  refine ⟨⟨(i 0).val, hlt⟩, flush0_8 _, ?_⟩
  rw [mem_block8]
  intro a
  match a with
  | ⟨0, _⟩ =>
    show win0_8.index ⟨(i 0).val, hlt⟩ (0 : Fin 3) * 1 ≤ (i 0).val
      ∧ (i 0).val < win0_8.index ⟨(i 0).val, hlt⟩ (0 : Fin 3) * 1 + 1
    rw [e0']; omega
  | ⟨1, _⟩ =>
    show win0_8.index ⟨(i 0).val, hlt⟩ (1 : Fin 3) * 2 ≤ (i 1).val
      ∧ (i 1).val < win0_8.index ⟨(i 0).val, hlt⟩ (1 : Fin 3) * 2 + 2
    rw [e1]; omega
  | ⟨2, _⟩ =>
    show win0_8.index ⟨(i 0).val, hlt⟩ (2 : Fin 3) * 128 ≤ (i 2).val
      ∧ (i 2).val < win0_8.index ⟨(i 0).val, hlt⟩ (2 : Fin 3) * 128 + 128
    rw [e2]; omega

/-- The second result array after the region is the statistics array of the fused table. -/
theorem stats_final (c : Dev nD) :
    (dat0 (F := Ideal) V c).arrAt 8 cfg0.N = statsArr (fuse1 (arrO V c) (arrI V c) (arrX V c) (arrWo V c) (arrWi V c) (arrWs V c) (arrB V c)) :=
  (dat0 (F := Ideal) V c).arrAt_eq_of_cover 8 (statsArr (fuse1 (arrO V c) (arrI V c) (arrX V c) (arrWo V c) (arrWi V c) (arrWs V c) (arrB V c)))
    (fun t _ => stats_writeback V c t) stats_cover

/-! ## The three facts about the region's results -/

/-- The first result array after the region: the fused table. -/
theorem fused_table (c : Dev nD) (r : Fin 100000) (j : Fin 128) :
    rd2 ((dat0 (F := Ideal) V c).arrAt 7 cfg0.N) r j
      = fuse1 (V c main_v33) (V c main_v38) (V c main_arg0) (V c main_arg4) (V c main_arg6) (V c main_arg8) (V c main_v43) r j := by
  show (dat0 (F := Ideal) V c).arrAt 7 cfg0.N (ix2 r j) = _
  rw [fused_final V c]
  rfl

/-- The second result array after the region, position 0 of row t: the column sums of block t of the fused table. -/
theorem block_sums (c : Dev nD) (t : Fin 20) (j : Fin 128) :
    rd3 ((dat0 (F := Ideal) V c).arrAt 8 cfg0.N) t (0 : Fin 2) j
      = ∑ r : Fin 5000, fuse1 (V c main_v33) (V c main_v38) (V c main_arg0) (V c main_arg4) (V c main_arg6) (V c main_arg8) (V c main_v43) (blockRow t r) j := by
  show (dat0 (F := Ideal) V c).arrAt 8 cfg0.N (ix3 t (0 : Fin 2) j) = _
  rw [stats_final V c]
  exact statsArr_zero _ t j

/-- Position 1 of row t: the column sums of the squares. -/
theorem block_square_sums (c : Dev nD) (t : Fin 20) (j : Fin 128) :
    rd3 ((dat0 (F := Ideal) V c).arrAt 8 cfg0.N) t (1 : Fin 2) j
      = ∑ r : Fin 5000, fuse1 (V c main_v33) (V c main_v38) (V c main_arg0) (V c main_arg4) (V c main_arg6) (V c main_arg8) (V c main_v43) (blockRow t r) j
          * fuse1 (V c main_v33) (V c main_v38) (V c main_arg0) (V c main_arg4) (V c main_arg6) (V c main_arg8) (V c main_v43) (blockRow t r) j := by
  show (dat0 (F := Ideal) V c).arrAt 8 cfg0.N (ix3 t (1 : Fin 2) j) = _
  rw [stats_final V c]
  exact statsArr_one _ t j

end Cert.KernelIdeal.Region0

end
-- ==== Proof.KRegion1.lean ====
/-
  What the second kernel leaves in its result array, entry by entry, from the arrays it is entered with: each row of
  the fused table less the mean row, times the reciprocal root of the variance row plus epsilon, times the scale
  row, plus the shift row. The statistics array holds the mean in row 0 and the variance in row 1.
-/
import proofs.«429616_j5832565588650_3_alg».proof.Proof.Gen.KernelIdeal.Frame
import proofs.«429616_j5832565588650_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

/-- The kernel's arithmetic at one entry of a block: the table's entry less the first statistics row's, times the
    reciprocal root of the second statistics row's plus epsilon, times the scale row's, plus the shift row's. -/
theorem pay_apply (mean var : Vec Ideal S1x128 .f32) (h : Vec Ideal S5000x128 .f32) (g b : Vec Ideal S1x128 .f32)
    (p : Fin 5000) (q : Fin 128) :
    k1_pay1 (F := Ideal) mean var h g b (ix2 p q)
      = (((h (ix2 p q) : EReal) - mean (ix2 (0 : Fin 1) q)) * Ideal.rsqrt (var (ix2 (0 : Fin 1) q) + eps))
          * g (ix2 (0 : Fin 1) q) + b (ix2 (0 : Fin 1) q) := by
  unfold k1_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- Both rectangles of zero offsets, however the zeros are spelt. -/
theorem zero_off : (![0, 0] : Fin 2 → Nat) = fun _ => 0 := funext fun a => by fin_cases a <;> rfl

/-- What one grid point's body leaves in the result block, entry by entry, from the four blocks it loads: the
    statistics block is read through its first row for the mean and through its second row for the variance. -/
theorem out_apply (x0 : Vec Ideal S5000x128 .f32) (x1 : Vec Ideal S2x128 .f32) (x2 x3 : Vec Ideal S1x128 .f32)
    (p : Fin 5000) (q : Fin 128) :
    out1_4 (F := Ideal) x0 x1 x2 x3 (ix2 p q)
      = (((x0 (ix2 p q) : EReal) - x1 (ix2 (0 : Fin 2) q)) * Ideal.rsqrt (x1 (ix2 (1 : Fin 2) q) + eps))
          * x2 (ix2 (0 : Fin 1) q) + x3 (ix2 (0 : Fin 1) q) := by
  unfold out1_4
  rw [View.canon_unit_zero zero_off]
  simp only [View.ld_unit_zero (S := S5000x128) zero_off, View.ld_unit_zero (S := S1x128) zero_off]
  refine (pay_apply _ _ _ _ _ p q).trans ?_
  have e0 : r1_0.idx (ix2 (0 : Fin 1) q) = ix2 (0 : Fin 2) q := by
    funext a; apply Fin.ext
    match a with
    | ⟨0, _⟩ => rfl
    | ⟨1, _⟩ => show 0 + 1 * q.val = q.val; omega
  have e1 : r1_1.idx (ix2 (0 : Fin 1) q) = ix2 (1 : Fin 2) q := by
    funext a; apply Fin.ext
    match a with
    | ⟨0, _⟩ => rfl
    | ⟨1, _⟩ => show 0 + 1 * q.val = q.val; omega
  show (((x0 (ix2 p q) : EReal) - x1 (r1_0.idx (ix2 (0 : Fin 1) q))) * Ideal.rsqrt (x1 (r1_1.idx (ix2 (0 : Fin 1) q)) + eps))
          * x2 (ix2 (0 : Fin 1) q) + x3 (ix2 (0 : Fin 1) q) = _
  rw [e0, e1]

/-- The column of an entry of the table. -/
abbrev col (i : S100000x128.Idx) : Fin 128 := i 1

/-- The normalised table as one function of the four arrays, entry by entry. -/
def normTable (h : S100000x128.Idx → EReal) (st : S2x128.Idx → EReal) (g b : S1x128.Idx → EReal) :
    S100000x128.Idx → EReal := fun i =>
  ((h i - st (ix2 (0 : Fin 2) (col i))) * Ideal.rsqrt (st (ix2 (1 : Fin 2) (col i)) + eps))
    * g (ix2 (0 : Fin 1) (col i)) + b (ix2 (0 : Fin 1) (col i))

/-- Where each window's block sits at each of the twenty grid points: the table's block and the result's block are
    block `t` of the rows, and the statistics, scale and shift arrays are taken whole. -/
theorem block_places : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The four arrays the region reads, as it finds them: the fused table, the statistics (mean row, variance row),
    the scale row and the shift row. -/
abbrev tableArr (c : Dev nD) : S100000x128.Idx → EReal := V c main_v44_0
abbrev statsArr (c : Dev nD) : S2x128.Idx → EReal := V c main_v61
abbrev scaleArr (c : Dev nD) : S1x128.Idx → EReal := V c main_v62
abbrev shiftArr (c : Dev nD) : S1x128.Idx → EReal := V c main_v63

/-- What grid point `t` writes back is block `t` of the normalised table of the arrays the region is entered with. -/
theorem flushed_eq (c : Dev nD) (t : Fin cfg1.N) :
    (dat1 (F := Ideal) V c).flushed 4 t
      = ((cfg1.win 4).blk t).view.read (Elt Ideal)
          (normTable (V c main_v44_0) (V c main_v61) (V c main_v62) (V c main_v63)) := by
  show (cfg1.win 4).cut (grid1.coords t) ((dat1 V c).after 4 t) = _
  rw [after1_4]
  obtain ⟨a0, a1, b0, b1, c0, c1, d0, d1, e0, e1⟩ := block_places t
  funext y
  obtain ⟨p, q, rfl⟩ : ∃ (p : Fin 5000) (q : Fin 128), y = ix2 p q := ⟨y 0, y 1, eq_ix2 y⟩
  show out1_4 (iblk1 V c 0 t) (iblk1 V c 1 t) (iblk1 V c 2 t) (iblk1 V c 3 t) (ix2 p q)
    = normTable (V c main_v44_0) (V c main_v61) (V c main_v62) (V c main_v63) (((cfg1.win 4).blk t).view.emb (ix2 p q))
  refine (out_apply _ _ _ _ p q).trans ?_
  have i0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have i1 : ((cfg1.win 1).blk t).view.emb (ix2 (0 : Fin 2) q) = ix2 (0 : Fin 2) (col (((cfg1.win 4).blk t).view.emb (ix2 p q))) := by
    funext a; apply Fin.ext
    match a with
    | ⟨0, _⟩ => show win1_1.index t (0 : Fin 2) * 2 + 1 * 0 = 0; omega
    | ⟨1, _⟩ => show win1_1.index t (1 : Fin 2) * 128 + 1 * q.val = win1_4.index t (1 : Fin 2) * 128 + 1 * q.val; omega
  have i1' : ((cfg1.win 1).blk t).view.emb (ix2 (1 : Fin 2) q) = ix2 (1 : Fin 2) (col (((cfg1.win 4).blk t).view.emb (ix2 p q))) := by
    funext a; apply Fin.ext
    match a with
    | ⟨0, _⟩ => show win1_1.index t (0 : Fin 2) * 2 + 1 * 1 = 1; omega
    | ⟨1, _⟩ => show win1_1.index t (1 : Fin 2) * 128 + 1 * q.val = win1_4.index t (1 : Fin 2) * 128 + 1 * q.val; omega
  have i2 : ((cfg1.win 2).blk t).view.emb (ix2 (0 : Fin 1) q) = ix2 (0 : Fin 1) (col (((cfg1.win 4).blk t).view.emb (ix2 p q))) := by
    funext a; apply Fin.ext
    match a with
    | ⟨0, _⟩ => show win1_2.index t (0 : Fin 2) * 1 + 1 * 0 = 0; omega
    | ⟨1, _⟩ => show win1_2.index t (1 : Fin 2) * 128 + 1 * q.val = win1_4.index t (1 : Fin 2) * 128 + 1 * q.val; omega
  have i3 : ((cfg1.win 3).blk t).view.emb (ix2 (0 : Fin 1) q) = ix2 (0 : Fin 1) (col (((cfg1.win 4).blk t).view.emb (ix2 p q))) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  show ((tableArr V c (((cfg1.win 0).blk t).view.emb (ix2 p q))
            - statsArr V c (((cfg1.win 1).blk t).view.emb (ix2 (0 : Fin 2) q)))
          * Ideal.rsqrt (statsArr V c (((cfg1.win 1).blk t).view.emb (ix2 (1 : Fin 2) q)) + eps))
        * scaleArr V c (((cfg1.win 2).blk t).view.emb (ix2 (0 : Fin 1) q))
      + shiftArr V c (((cfg1.win 3).blk t).view.emb (ix2 (0 : Fin 1) q)) = _
  rw [i0, i1, i1', i2, i3]
  rfl

/-- An entry of the result array is in point `t`'s block iff each of its coordinates is in the block's range. -/
theorem mem_blk (t : Fin cfg1.N) (i : S100000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v64).slice (win1_4.rect t)).set ↔ _
  rw [View.set_slice_whole, Rect.mem_set_unit]
  exact Iff.rfl

/-- Every entry of the result array is in the block of the point numbered by its row divided by 5000. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨a0, a1, b0, b1, c0, c1, d0, d1, e0, e1⟩ := block_places t
  have ht : t.val = (i 0).val / 5000 := rfl
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- The result array after the region is the normalised table of the arrays the region is entered with. -/
theorem final (c : Dev nD) :
    (dat1 (F := Ideal) V c).arrAt 4 cfg1.N
      = normTable (V c main_v44_0) (V c main_v61) (V c main_v62) (V c main_v63) :=
  (dat1 V c).arrAt_eq_of_cover 4 _ (fun t _ => flushed_eq V c t) covered

/-- The result array after the region: the normalised table. -/
theorem normalised_table (c : Dev nD) (r : Fin 100000) (j : Fin 128) :
    rd2 ((dat1 (F := Ideal) V c).arrAt 4 cfg1.N) r j
      = ((rd2 (V c main_v44_0) r j - rd2 (V c main_v61) (0 : Fin 2) j) * Ideal.rsqrt (rd2 (V c main_v61) (1 : Fin 2) j + eps))
          * rd2 (V c main_v62) (0 : Fin 1) j + rd2 (V c main_v63) (0 : Fin 1) j := by
  unfold rd2
  rw [final V c]
  rfl

end Cert.KernelIdeal.Region1

end
-- ==== Proof.KHost.lean ====
/-
  The arrays each kernel is entered with, read back through the host operations before it: the first kernel's two
  mean aggregates and summed bias row from the arguments, the second kernel's statistics rows from the first
  kernel's partial sums.
-/
import proofs.«429616_j5832565588650_3_alg».proof.Proof.Gen.KernelIdeal.Frame
import proofs.«429616_j5832565588650_3_alg».proof.Proof.Spec
import proofs.«429616_j5832565588650_3_alg».proof.Proof.HostPrefix
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.Host

open Cert.KernelIdeal Cert.KernelIdeal.Gen Cert.Spec Cert.HostPrefix
open Idealize.ShloMosaic Idealize.ShloMosaic.TcCoe Idealize.ShloMosaic.ValueIdx Idealize.SL.Sem Idealize.ShloMosaic.StableHlo
open scoped BigOperators

/-- Reading a function at an index through an equation of functions. -/
theorem apply_of_eq {ι α : Type} {f g : ι → α} (h : f = g) (i : ι) {y : α} (h2 : g i = y) : f i = y := h ▸ h2

/-- A 128-vector recast as a one-row matrix, read in that row. -/
theorem row_of_vec (v : S128.Idx → EReal) (h : S128.ShapeCasts S1x128) (j : Fin 128) :
    shapeCast S1x128 v h (ix2 (0 : Fin 1) j) = v (ix1 j) :=
  (shapeCast_addUnit_apply ![128] v h (ix2 (0 : Fin 1) j)).trans
    (congrArg v (funext fun a => by match a with | ⟨0, _⟩ => rfl))

/-- A 128-vector laid along axis 1 of a one-row matrix, read in that row. -/
theorem row_of_bcast (v : S128.Idx → EReal) (h : S128.BroadcastsInDim S1x128 ![1]) (j : Fin 128) :
    broadcastInDim S1x128 ![1] h v (ix2 (0 : Fin 1) j) = v (ix1 j) :=
  broadcastInDim_apply _ h v (ix2 (0 : Fin 1) j) (ix1 j) (fun a => by match a with | ⟨0, _⟩ => rfl)

/-- A scalar spread over a 128-vector reads the scalar. -/
theorem vec_of_scalar (x : S_.Idx → EReal) (h : S_.BroadcastsInDim S128 ![]) (i : S128.Idx) :
    broadcastInDim S128 ![] h x i = x ix0 :=
  broadcastInDim_apply _ h x i ix0 (fun a => a.elim0)

/-- Position `o` of every row of the 20 x 2 x 128 statistics array, cut out, flattened to 20 x 128 and summed down the
    20 rows from zero: column j's value is the sum over the rows. -/
theorem colsum_apply (o : ℕ) (ho : o < 2) (st : S20x2x128.Idx → EReal) (hs : S20x2x128.Slices ![0, o, 0] S20x1x128)
    (hc : S20x1x128.ShapeCasts S20x128) (hr : S20x128.ReducesTo [0] S128) (hu : 0 < S_.numel) (j : Fin 128) :
    Host.reduceAdd (F := Ideal) (shapeCast S20x128 (extractStridedSlice S20x1x128 ![0, o, 0] st hs) hc)
        (constant S_ .f32 0x00000000#32) hr hu (ix1 j)
      = ∑ t : Fin 20, st (ix3 t (⟨o, ho⟩ : Fin 2) j) := by
  rw [hostReduceAdd_apply, Ideal.hostReduceAdd_single hr (by decide), constant_apply, Ideal.ofBits_zero_f32, zero_add]
  refine Finset.sum_congr rfl fun t _ => ?_
  refine (shapeCast_apply _ hc _ (ix3 t (0 : Fin 1) j) ?_).trans ?_
  · rw [Shape.rowMajor_val_three, Shape.rowMajor_val_two]
    show (t.val * 1 + 0) * 128 + j.val = t.val * 128 + j.val
    omega
  · exact slice3_axis1_apply o st hs t (0 : Fin 1) j ⟨o, ho⟩ (by simp)

/-- The three bias rows recast as one-row matrices and added, as the host does before the first kernel. -/
def biasRow (a5 a7 a9 : FVec Ideal S128 .f32) : FVec Ideal S1x128 .f32 :=
  addf (addf (shapeCast S1x128 a5 shapeCasts_S128_S1x128) (shapeCast S1x128 a7 shapeCasts_S128_S1x128))
    (shapeCast S1x128 a9 shapeCasts_S128_S1x128)

theorem biasRow_apply (a5 a7 a9 : FVec Ideal S128 .f32) (j : Fin 128) :
    biasRow a5 a7 a9 (ix2 (0 : Fin 1) j) = (a5 (ix1 j) + a7 (ix1 j)) + a9 (ix1 j) := by
  unfold biasRow
  rw [addf_apply, addf_apply, row_of_vec, row_of_vec, row_of_vec]

variable (m : (ℓ : Loc nD τ sig) → Buf (Elt Ideal) ℓ) (ρ : Dev nD → PrngReg)

theorem V1_v33 (c : Dev nD) : V1 m ρ c main_v33
    = meanAgg (m ((c.tc : Thread nD τ).loc main_arg0)) (m ((c.tc : Thread nD τ).loc main_arg1)) (m ((c.tc : Thread nD τ).loc main_arg2)) (m ((c.tc : Thread nD τ).loc main_arg3)) := by
  show StableHlo.after hostOps0 (W0 m ρ c) (Proc.devRef .tc main_v33) = _
  after_results_simp
  rfl

theorem V1_v38 (c : Dev nD) : V1 m ρ c main_v38
    = meanAgg (m ((c.tc : Thread nD τ).loc main_arg0)) (m ((c.tc : Thread nD τ).loc main_arg1)) (m ((c.tc : Thread nD τ).loc main_arg3)) (m ((c.tc : Thread nD τ).loc main_arg2)) := by
  show StableHlo.after hostOps0 (W0 m ρ c) (Proc.devRef .tc main_v38) = _
  after_results_simp
  rfl

theorem V1_v43 (c : Dev nD) (j : Fin 128) : rd2 (V1 m ρ c main_v43) (0 : Fin 1) j
    = (rd1 (m ((c.tc : Thread nD τ).loc main_arg5)) j + rd1 (m ((c.tc : Thread nD τ).loc main_arg7)) j) + rd1 (m ((c.tc : Thread nD τ).loc main_arg9)) j := by
  have e : V1 m ρ c main_v43 = biasRow (m ((c.tc : Thread nD τ).loc main_arg5)) (m ((c.tc : Thread nD τ).loc main_arg7)) (m ((c.tc : Thread nD τ).loc main_arg9)) := by
    show StableHlo.after hostOps0 (W0 m ρ c) (Proc.devRef .tc main_v43) = _
    after_results_simp
    rfl
  show (V1 m ρ c main_v43 : S1x128.Idx → EReal) (ix2 (0 : Fin 1) j) = _
  rw [e, biasRow_apply]

theorem V1_arg0 (c : Dev nD) : V1 m ρ c main_arg0 = m ((c.tc : Thread nD τ).loc main_arg0) := by
  show StableHlo.after hostOps0 (W0 m ρ c) (Proc.devRef .tc main_arg0) = _
  after_results_simp
theorem V1_arg4 (c : Dev nD) : V1 m ρ c main_arg4 = m ((c.tc : Thread nD τ).loc main_arg4) := by
  show StableHlo.after hostOps0 (W0 m ρ c) (Proc.devRef .tc main_arg4) = _
  after_results_simp
theorem V1_arg6 (c : Dev nD) : V1 m ρ c main_arg6 = m ((c.tc : Thread nD τ).loc main_arg6) := by
  show StableHlo.after hostOps0 (W0 m ρ c) (Proc.devRef .tc main_arg6) = _
  after_results_simp
theorem V1_arg8 (c : Dev nD) : V1 m ρ c main_arg8 = m ((c.tc : Thread nD τ).loc main_arg8) := by
  show StableHlo.after hostOps0 (W0 m ρ c) (Proc.devRef .tc main_arg8) = _
  after_results_simp

theorem V3_v44_0 (c : Dev nD) : V3 m ρ c main_v44_0 = (dat0 (V1 m ρ) c).arrAt 7 cfg0.N := by
  have e : V3 m ρ c main_v44_0 = W2 m ρ c (Proc.devRef .tc main_v44_0) := by
    show StableHlo.after hostOps1 (W2 m ρ c) (Proc.devRef .tc main_v44_0) = _
    after_results_simp
  exact e.trans (W2_arr m ρ c 7)

/-- The column means of the statistics array's position 0 over its 20 rows, by the count. -/
def meanVec (st : FVec Ideal S20x2x128 .f32) : FVec Ideal S128 .f32 :=
  Host.divf
    (Host.reduceAdd (shapeCast S20x128 (extractStridedSlice S20x1x128 ![0, 0, 0] st slices_S20x2x128_S20x1x128_0_0_0) shapeCasts_S20x1x128_S20x128)
      (constant S_ .f32 0x00000000#32) reducesTo_S20x128_S128_d0 h_S_)
    (broadcastInDim S128 ![] bcast_S_S128 (constant S_ .f32 0x47C35000#32))

/-- The same of position 1. -/
def sqMeanVec (st : FVec Ideal S20x2x128 .f32) : FVec Ideal S128 .f32 :=
  Host.divf
    (Host.reduceAdd (shapeCast S20x128 (extractStridedSlice S20x1x128 ![0, 1, 0] st slices_S20x2x128_S20x1x128_0_1_0) shapeCasts_S20x1x128_S20x128)
      (constant S_ .f32 0x00000000#32) reducesTo_S20x128_S128_d0 h_S_)
    (broadcastInDim S128 ![] bcast_S_S128 (constant S_ .f32 0x47C35000#32))

/-- The variance row: the mean of squares less the squared mean, not below zero. -/
def varVec (st : FVec Ideal S20x2x128 .f32) : FVec Ideal S128 .f32 :=
  maximumf (subf (sqMeanVec st) (mulf (meanVec st) (meanVec st))) (broadcastInDim S128 ![] bcast_S_S128 (constant S_ .f32 0x00000000#32))

theorem meanVec_apply (st : FVec Ideal S20x2x128 .f32) (j : Fin 128) :
    meanVec st (ix1 j) = Ideal.div (∑ t : Fin 20, st (ix3 t (0 : Fin 2) j)) count := by
  unfold meanVec
  rw [hostDivf_apply, colsum_apply 0 (by omega), vec_of_scalar, constant_apply]
  rfl

theorem sqMeanVec_apply (st : FVec Ideal S20x2x128 .f32) (j : Fin 128) :
    sqMeanVec st (ix1 j) = Ideal.div (∑ t : Fin 20, st (ix3 t (1 : Fin 2) j)) count := by
  unfold sqMeanVec
  rw [hostDivf_apply, colsum_apply 1 (by omega), vec_of_scalar, constant_apply]
  rfl

theorem varVec_apply (st : FVec Ideal S20x2x128 .f32) (j : Fin 128) :
    varVec st (ix1 j) = max (sqMeanVec st (ix1 j) - meanVec st (ix1 j) * meanVec st (ix1 j)) 0 := by
  unfold varVec
  rw [maximumf_apply, subf_apply, mulf_apply, vec_of_scalar, constant_apply, Ideal.ofBits_zero_f32]

/-- Whatever the buffers hold before them, the host operations between the two kernels leave in row 0 of the
    second kernel's statistics array the mean row of the first kernel's partial sums, -/
theorem stat_row0 (Wv : Valuation τ sig (Elt Ideal)) (j : Fin 128) :
    (StableHlo.after hostOps1 Wv (Proc.devRef .tc main_v61) : FVec Ideal S2x128 .f32) (ix2 (0 : Fin 2) j)
      = meanVec (Wv (Proc.devRef .tc main_v44_1)) (ix1 j) := by
  refine apply_of_eq (g := _) (by after_results_simp; rfl) (ix2 (0 : Fin 2) j) ?_
  rw [concatenate_pair_apply_left (t := S2x128) (s₁ := S1x128) (s₂ := S1x128) (0 : Fin 2) _ _ concatenates_S1x128_S1x128_S2x128_d0
    (ix2 (0 : Fin 2) j) rfl (ix2 (0 : Fin 1) j) (fun b => by match b with | ⟨0, _⟩ => rfl | ⟨1, _⟩ => rfl)]
  refine apply_of_eq (g := _) (by after_results_simp; rfl) (ix2 (0 : Fin 1) j) ?_
  exact row_of_bcast (meanVec (Wv (Proc.devRef .tc main_v44_1))) bcast_S128_S1x128_1 j

/-- and in row 1 the variance row. -/
theorem stat_row1 (Wv : Valuation τ sig (Elt Ideal)) (j : Fin 128) :
    (StableHlo.after hostOps1 Wv (Proc.devRef .tc main_v61) : FVec Ideal S2x128 .f32) (ix2 (1 : Fin 2) j)
      = varVec (Wv (Proc.devRef .tc main_v44_1)) (ix1 j) := by
  refine apply_of_eq (g := _) (by after_results_simp; rfl) (ix2 (1 : Fin 2) j) ?_
  rw [concatenate_pair_apply_right (t := S2x128) (s₁ := S1x128) (s₂ := S1x128) (0 : Fin 2) _ _ concatenates_S1x128_S1x128_S2x128_d0
    (ix2 (1 : Fin 2) j) rfl rfl (ix2 (0 : Fin 1) j)
    (fun b hb => by match b with | ⟨0, _⟩ => exact absurd rfl hb | ⟨1, _⟩ => rfl) rfl]
  refine apply_of_eq (g := _) (by after_results_simp; rfl) (ix2 (0 : Fin 1) j) ?_
  exact row_of_bcast (varVec (Wv (Proc.devRef .tc main_v44_1))) bcast_S128_S1x128_1 j

/-- The statistics array between the regions is what the first kernel's second output window leaves. -/
theorem W2_stats (c : Dev nD) : W2 m ρ c (Proc.devRef .tc main_v44_1) = (dat0 (V1 m ρ) c).arrAt 8 cfg0.N := W2_arr m ρ c 8

theorem V3_mean (c : Dev nD) (j : Fin 128) : rd2 (V3 m ρ c main_v61) (0 : Fin 2) j
    = Ideal.div (∑ t : Fin 20, rd3 ((dat0 (V1 m ρ) c).arrAt 8 cfg0.N) t (0 : Fin 2) j) count := by
  show (StableHlo.after hostOps1 (W2 m ρ c) (Proc.devRef .tc main_v61) : FVec Ideal S2x128 .f32) (ix2 (0 : Fin 2) j) = _
  rw [stat_row0, meanVec_apply, W2_stats]

theorem V3_var (c : Dev nD) (j : Fin 128) : rd2 (V3 m ρ c main_v61) (1 : Fin 2) j
    = max (Ideal.div (∑ t : Fin 20, rd3 ((dat0 (V1 m ρ) c).arrAt 8 cfg0.N) t (1 : Fin 2) j) count
        - rd2 (V3 m ρ c main_v61) (0 : Fin 2) j * rd2 (V3 m ρ c main_v61) (0 : Fin 2) j) 0 := by
  rw [V3_mean m ρ c j]
  show (StableHlo.after hostOps1 (W2 m ρ c) (Proc.devRef .tc main_v61) : FVec Ideal S2x128 .f32) (ix2 (1 : Fin 2) j) = _
  rw [stat_row1, varVec_apply, sqMeanVec_apply, meanVec_apply, W2_stats]

/-- The scale and shift rows reach the second region as launched. -/
theorem W2_arg10 (c : Dev nD) : W2 m ρ c (Proc.devRef .tc main_arg10) = m ((c.tc : Thread nD τ).loc main_arg10) :=
  (W2_of_ne m ρ c main_arg10 (by decide)).trans (by
    show StableHlo.after hostOps0 (W0 m ρ c) (Proc.devRef .tc main_arg10) = _
    after_results_simp)
theorem W2_arg11 (c : Dev nD) : W2 m ρ c (Proc.devRef .tc main_arg11) = m ((c.tc : Thread nD τ).loc main_arg11) :=
  (W2_of_ne m ρ c main_arg11 (by decide)).trans (by
    show StableHlo.after hostOps0 (W0 m ρ c) (Proc.devRef .tc main_arg11) = _
    after_results_simp)

theorem V3_v62 (c : Dev nD) (j : Fin 128) : rd2 (V3 m ρ c main_v62) (0 : Fin 1) j = rd1 (m ((c.tc : Thread nD τ).loc main_arg10)) j := by
  have e : (V3 m ρ c main_v62 : FVec Ideal S1x128 .f32)
      = shapeCast S1x128 (W2 m ρ c (Proc.devRef .tc main_arg10)) shapeCasts_S128_S1x128 := by
    show StableHlo.after hostOps1 (W2 m ρ c) (Proc.devRef .tc main_v62) = _
    after_results_simp
    rfl
  show (V3 m ρ c main_v62 : FVec Ideal S1x128 .f32) (ix2 (0 : Fin 1) j) = _
  rw [e, row_of_vec, W2_arg10]
theorem V3_v63 (c : Dev nD) (j : Fin 128) : rd2 (V3 m ρ c main_v63) (0 : Fin 1) j = rd1 (m ((c.tc : Thread nD τ).loc main_arg11)) j := by
  have e : (V3 m ρ c main_v63 : FVec Ideal S1x128 .f32)
      = shapeCast S1x128 (W2 m ρ c (Proc.devRef .tc main_arg11)) shapeCasts_S128_S1x128 := by
    show StableHlo.after hostOps1 (W2 m ρ c) (Proc.devRef .tc main_v63) = _
    after_results_simp
    rfl
  show (V3 m ρ c main_v63 : FVec Ideal S1x128 .f32) (ix2 (0 : Fin 1) j) = _
  rw [e, row_of_vec, W2_arg11]

end Cert.KernelIdeal.Host

end
-- ==== Proof.KValue.lean ====
/-
  The kernel program's result, entry by entry, as the formula of Spec.lean over the argument arrays: the second
  region's array read through the host operations between the regions, the first region's arrays, and the host
  operations before it.
-/
import proofs.«429616_j5832565588650_3_alg».proof.Proof.KRegion0
import proofs.«429616_j5832565588650_3_alg».proof.Proof.KRegion1
import proofs.«429616_j5832565588650_3_alg».proof.Proof.KHost

set_option maxRecDepth 16384

noncomputable section

namespace Cert.KernelIdeal.KValue

open Cert.KernelIdeal Cert.KernelIdeal.Gen Cert.Spec Cert.HostPrefix
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- With the bias row the host summed, the first kernel's fused entry is the kernel formula of the three bias rows. -/
theorem fuse1_bias (ho hi x : SNC.Idx → EReal) (wo wi ws : SCC.Idx → EReal) (c : Dev nD) (r : Fin 100000) (j : Fin 128) :
    Region0.fuse1 ho hi x wo wi ws (V1 m ρ c main_v43) r j
      = fuseK ho hi x wo wi ws (m ((c.tc : Thread nD τ).loc main_arg5)) (m ((c.tc : Thread nD τ).loc main_arg7)) (m ((c.tc : Thread nD τ).loc main_arg9)) r j := by
  unfold Region0.fuse1 fuseK
  exact congrArg (fun z => third * (((dotT ho wo r j + dotT hi wi r j) + dotT x ws r j) + z)) (Host.V1_v43 m ρ c j)

/-- The same at the arrays the first kernel is entered with. -/
theorem fuse1_args (c : Dev nD) (r : Fin 100000) (j : Fin 128) :
    Region0.fuse1 (meanAgg (m ((c.tc : Thread nD τ).loc main_arg0)) (m ((c.tc : Thread nD τ).loc main_arg1)) (m ((c.tc : Thread nD τ).loc main_arg2)) (m ((c.tc : Thread nD τ).loc main_arg3))) (meanAgg (m ((c.tc : Thread nD τ).loc main_arg0)) (m ((c.tc : Thread nD τ).loc main_arg1)) (m ((c.tc : Thread nD τ).loc main_arg3)) (m ((c.tc : Thread nD τ).loc main_arg2)))
        (m ((c.tc : Thread nD τ).loc main_arg0)) (m ((c.tc : Thread nD τ).loc main_arg4)) (m ((c.tc : Thread nD τ).loc main_arg6)) (m ((c.tc : Thread nD τ).loc main_arg8)) (V1 m ρ c main_v43) r j
      = fuseK (meanAgg (m ((c.tc : Thread nD τ).loc main_arg0)) (m ((c.tc : Thread nD τ).loc main_arg1)) (m ((c.tc : Thread nD τ).loc main_arg2)) (m ((c.tc : Thread nD τ).loc main_arg3))) (meanAgg (m ((c.tc : Thread nD τ).loc main_arg0)) (m ((c.tc : Thread nD τ).loc main_arg1)) (m ((c.tc : Thread nD τ).loc main_arg3)) (m ((c.tc : Thread nD τ).loc main_arg2)))
        (m ((c.tc : Thread nD τ).loc main_arg0)) (m ((c.tc : Thread nD τ).loc main_arg4)) (m ((c.tc : Thread nD τ).loc main_arg6)) (m ((c.tc : Thread nD τ).loc main_arg8)) (m ((c.tc : Thread nD τ).loc main_arg5)) (m ((c.tc : Thread nD τ).loc main_arg7)) (m ((c.tc : Thread nD τ).loc main_arg9)) r j :=
  fuse1_bias m ρ _ _ _ _ _ _ c r j

/-- The result buffer's final contents at (r, j). -/
theorem kernel_value (c : Dev nD) (r : Fin 100000) (j : Fin 128) :
    rd2 (W4 m ρ c (Proc.devRef .tc main_v64)) r j
      = outK (fuseK (meanAgg (m ((c.tc : Thread nD τ).loc main_arg0)) (m ((c.tc : Thread nD τ).loc main_arg1)) (m ((c.tc : Thread nD τ).loc main_arg2)) (m ((c.tc : Thread nD τ).loc main_arg3))) (meanAgg (m ((c.tc : Thread nD τ).loc main_arg0)) (m ((c.tc : Thread nD τ).loc main_arg1)) (m ((c.tc : Thread nD τ).loc main_arg3)) (m ((c.tc : Thread nD τ).loc main_arg2)))
          (m ((c.tc : Thread nD τ).loc main_arg0)) (m ((c.tc : Thread nD τ).loc main_arg4)) (m ((c.tc : Thread nD τ).loc main_arg6)) (m ((c.tc : Thread nD τ).loc main_arg8)) (m ((c.tc : Thread nD τ).loc main_arg5)) (m ((c.tc : Thread nD τ).loc main_arg7)) (m ((c.tc : Thread nD τ).loc main_arg9))) (m ((c.tc : Thread nD τ).loc main_arg10)) (m ((c.tc : Thread nD τ).loc main_arg11)) r j := by
  have hW : W4 m ρ c (Proc.devRef .tc main_v64) = (dat1 (V3 m ρ) c).arrAt 4 cfg1.N := W4_arr m ρ c 4
  rw [hW, Region1.normalised_table (V3 m ρ) c r j, Host.V3_var, Host.V3_mean, Host.V3_v62, Host.V3_v63, Host.V3_v44_0,
    Region0.fused_table (V1 m ρ) c r j]
  simp only [Region0.block_sums (V1 m ρ) c, Region0.block_square_sums (V1 m ρ) c]
  rw [Host.V1_v33, Host.V1_v38, Host.V1_arg0, Host.V1_arg4, Host.V1_arg6, Host.V1_arg8]
  simp only [fuse1_args m ρ c]
  rfl

end Cert.KernelIdeal.KValue

end
-- ==== Proof.lean ====
/-
  Equivalence over the extended reals of a two-kernel message-passing layer and its plain reference.

  Both programs first form, on the host and by the same operations, the mean of the messages arriving at each node
  in the forward and in the reversed graph. The kernel program then fuses three 128-wide contractions, the summed
  bias and the factor one third in a first kernel, which also leaves per-block column sums of the fused table and of
  its squares; the host turns these into a column mean and the variance  max (E[h^2] - E[h]^2) 0 ; a second kernel
  normalises. The reference forms the three biased contractions one by one, takes the mean and the mean squared
  deviation, and normalises.

  On finite inputs every entry of the fused table is a real number, the two fused tables agree by distributivity,
  the block sums regroup into the whole column sums, and  E[h^2] - E[h]^2  is the mean squared deviation, which is
  not negative; the normalised entries are then the same expression. The precondition gives the finiteness.
-/
import proofs.«429616_j5832565588650_3_alg».proof.Defs
import proofs.«429616_j5832565588650_3_alg».proof.Proof.Gen.Kernel
import proofs.«429616_j5832565588650_3_alg».proof.Proof.Gen.Kernel.Frame
import proofs.«429616_j5832565588650_3_alg».proof.Proof.Gen.KernelIdeal
import proofs.«429616_j5832565588650_3_alg».proof.Proof.Gen.KernelIdeal.Frame
import proofs.«429616_j5832565588650_3_alg».proof.Proof.Gen.ReferenceIdeal
import proofs.«429616_j5832565588650_3_alg».proof.Proof.Gen.ReferenceIdeal.Run
import proofs.«429616_j5832565588650_3_alg».proof.Proof.Gen.ReferenceIdeal.Read
import proofs.«429616_j5832565588650_3_alg».proof.Proof.Gen.Pre_finite_inputs
import proofs.«429616_j5832565588650_3_alg».proof.Proof.Spec
import proofs.«429616_j5832565588650_3_alg».proof.Proof.Algebra
import proofs.«429616_j5832565588650_3_alg».proof.Proof.HostPrefix
import proofs.«429616_j5832565588650_3_alg».proof.Proof.PreFinite
import proofs.«429616_j5832565588650_3_alg».proof.Proof.RefSide
import proofs.«429616_j5832565588650_3_alg».proof.Proof.KRun
import proofs.«429616_j5832565588650_3_alg».proof.Proof.KValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The two idealized programs, run from memories that agree on the arguments, end with one result. -/
theorem algebraic : Cert.algebraic_KernelIdeal_ReferenceIdeal := by
  intro m ρ m' ρ' hpre hagree
  refine ⟨fun c => Cert.KernelIdeal.Gen.W4 m ρ c (Proc.devRef .tc Cert.KernelIdeal.main_v64), Cert.KernelIdeal.Run.run_main m ρ, ?_⟩
  refine (θ_run Cert.ReferenceIdeal.defs _ _).mono (fun _ h c => ⟨(h c).1.trans ?_, (h c).2⟩)
    (Cert.ReferenceIdeal.Value.run (F := Ideal) m' ρ')
  -- the reference's result term, read at (r, j), against the kernel's result buffer at (r, j)
  rw [Cert.ReferenceIdeal.Read.val_main_v85_eq]
  obtain ⟨h0, h1, h2, h3, h4, h5, h6, h7, h8, h9, h10, h11⟩ := hagree c
  rw [h0, h1, h2, h3, h4, h5, h6, h7, h8, h9, h10, h11]
  obtain ⟨f0, f1, f4, f5, f6, f7, f8, f9⟩ := Cert.PreFinite.finite_of_pre _ _ _ _ _ _ _ _ _ _ _ _ (hpre c)
  funext i
  obtain ⟨r, j, rfl⟩ : ∃ (r : Fin 100000) (j : Fin 128), i = ix2 r j := ⟨i 0, i 1, eq_ix2 i⟩
  rw [Cert.ReferenceIdeal.RefValue.ref_value, Cert.ReferenceIdeal.RefValue.hout_eq, Cert.ReferenceIdeal.RefValue.hin_eq]
  refine Eq.trans ?_ (Cert.KernelIdeal.KValue.kernel_value m ρ c r j).symm
  exact (Cert.Spec.out_eq _ _ _ _ _ _ _ _ _ _ _
    (Cert.HostPrefix.meanAgg_finite _ _ _ _ f0 f1) (Cert.HostPrefix.meanAgg_finite _ _ _ _ f0 f1) f0 f4 f6 f8 f5 f7 f9 r j).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
